-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel

variable [Facts]

def fn {F : FTy → Type} [FloatOps F] (main_arg0 : FVec F S4x64x64x64 .f32) (main_arg1 : FVec F S4x64x64x64 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  let main_v4 : FVec F S4x64x64x64 .f32 := Host.absf main_arg1
  let main_cst_0 : FVec F S_ .f32 := constant S_ .f32 0x7F800000#32
  let main_v5 : FVec F S4x64x64x64 .f32 := broadcastInDim S4x64x64x64 ![] bcast_S_S4x64x64x64 main_cst_0
  let main_v6 : IVec S4x64x64x64 1 := cmpf .olt main_v4 main_v5
  let main_c_1 : IVec S_ 1 := constantI S_ 1 1#1
  let main_v7 : IVec S_ 1 := (fun x v => Host.reduce IntOp.andi x v reducesTo_S4x64x64x64_S_d0_1_2_3 h_S_) main_v6 main_c_1
  let main_v8 : IVec S_ 1 := andi main_v3 main_v7
  main_v8
-- ==== Kernel.lean ====
abbrev S4x64x64x64 : Shape := ⟨4, ![4, 64, 64, 64]⟩
abbrev S4x64x4096 : Shape := ⟨3, ![4, 64, 4096]⟩
abbrev S_ : Shape := ⟨0, ![]⟩
abbrev S4x64 : Shape := ⟨2, ![4, 64]⟩
abbrev S4x64x1x1 : Shape := ⟨4, ![4, 64, 1, 1]⟩
abbrev S4x64x64 : Shape := ⟨3, ![4, 64, 64]⟩
abbrev S4x1x64x64 : Shape := ⟨4, ![4, 1, 64, 64]⟩
abbrev S4x1x1 : Shape := ⟨3, ![4, 1, 1]⟩
abbrev S1x64x512 : Shape := ⟨3, ![1, 64, 512]⟩
abbrev S1x64x4096 : Shape := ⟨3, ![1, 64, 4096]⟩
abbrev S1x1x1 : Shape := ⟨3, ![1, 1, 1]⟩
abbrev S1x1 : Shape := ⟨2, ![1, 1]⟩
abbrev S64x512 : Shape := ⟨2, ![64, 512]⟩
abbrev S64x4096 : Shape := ⟨2, ![64, 4096]⟩
abbrev S512x4096 : Shape := ⟨2, ![512, 4096]⟩
abbrev S512 : Shape := ⟨1, ![512]⟩
abbrev S512x1 : Shape := ⟨2, ![512, 1]⟩
abbrev S1 : Shape := ⟨1, ![1]⟩
abbrev S4 : Shape := ⟨1, ![4]⟩

abbrev nBuf : Space → Nat
  | .hbm => 37
  | .vmem => 7
  | .smem => 0
  | _ => 0

abbrev bufTy : (tb : Table) → Fin (tcTables nBuf tb) → BufTy
  | .hbm, ⟨0, _⟩ => ⟨S4x64x64x64, .f32⟩
  | .hbm, ⟨1, _⟩ => ⟨S4x64x64x64, .f32⟩
  | .hbm, ⟨2, _⟩ => ⟨S4x64x4096, .f32⟩
  | .hbm, ⟨3, _⟩ => ⟨S_, .f32⟩
  | .hbm, ⟨4, _⟩ => ⟨S4x64, .f32⟩
  | .hbm, ⟨5, _⟩ => ⟨S_, .f32⟩
  | .hbm, ⟨6, _⟩ => ⟨S4x64, .f32⟩
  | .hbm, ⟨7, _⟩ => ⟨S4x64, .f32⟩
  | .hbm, ⟨8, _⟩ => ⟨S4x64x1x1, .f32⟩
  | .hbm, ⟨9, _⟩ => ⟨S4x64x64x64, .f32⟩
  | .hbm, ⟨10, _⟩ => ⟨S4x64x64x64, .f32⟩
  | .hbm, ⟨11, _⟩ => ⟨S4x64x64x64, .f32⟩
  | .hbm, ⟨12, _⟩ => ⟨S4x64x64x64, .f32⟩
  | .hbm, ⟨13, _⟩ => ⟨S4x64x64x64, .f32⟩
  | .hbm, ⟨14, _⟩ => ⟨S_, .f32⟩
  | .hbm, ⟨15, _⟩ => ⟨S4x64x64, .f32⟩
  | .hbm, ⟨16, _⟩ => ⟨S4x1x64x64, .f32⟩
  | .hbm, ⟨17, _⟩ => ⟨S4x1x64x64, .f32⟩
  | .hbm, ⟨18, _⟩ => ⟨S_, .f32⟩
  | .hbm, ⟨19, _⟩ => ⟨S4x1x64x64, .f32⟩
  | .hbm, ⟨20, _⟩ => ⟨S4x1x64x64, .f32⟩
  | .hbm, ⟨21, _⟩ => ⟨S4x64x64x64, .f32⟩
  | .hbm, ⟨22, _⟩ => ⟨S4x64x64x64, .f32⟩
  | .hbm, ⟨23, _⟩ => ⟨S4x64x4096, .f32⟩
  | .hbm, ⟨24, _⟩ => ⟨S4x64x64x64, .f32⟩
  | .hbm, ⟨25, _⟩ => ⟨S_, .f32⟩
  | .hbm, ⟨26, _⟩ => ⟨S4x64x64, .f32⟩
  | .hbm, ⟨27, _⟩ => ⟨S4x1x64x64, .f32⟩
  | .hbm, ⟨28, _⟩ => ⟨S4x1x64x64, .f32⟩
  | .hbm, ⟨29, _⟩ => ⟨S_, .f32⟩
  | .hbm, ⟨30, _⟩ => ⟨S4x1x64x64, .f32⟩
  | .hbm, ⟨31, _⟩ => ⟨S4x1x64x64, .f32⟩
  | .hbm, ⟨32, _⟩ => ⟨S4x64x64x64, .f32⟩
  | .hbm, ⟨33, _⟩ => ⟨S4x64x64x64, .f32⟩
  | .hbm, ⟨34, _⟩ => ⟨S4x64x4096, .f32⟩
  | .hbm, ⟨35, _⟩ => ⟨S4x1x1, .f32⟩
  | .hbm, ⟨36, _⟩ => ⟨S4, .f32⟩
  | .local _ .vmem, ⟨0, _⟩ => ⟨S1x64x512, .f32⟩
  | .local _ .vmem, ⟨1, _⟩ => ⟨S1x64x512, .f32⟩
  | .local _ .vmem, ⟨2, _⟩ => ⟨S1x64x4096, .f32⟩
  | .local _ .vmem, ⟨3, _⟩ => ⟨S1x64x4096, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_19 : BitVec 32 := 0#32
  let v41 : BitVec 1 := Scalar.cmpi .ne v40 c0_i32_19
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x64x64x64_S4x64x4096 : S4x64x64x64.ShapeCasts S4x64x4096
  reducesTo_S4x64x4096_S4x64_d2 : S4x64x4096.ReducesTo [2] S4x64
  h_S_ : 0 < S_.numel
  bcast_S_S4x64 : S_.BroadcastsInDim S4x64 (![] : Fin 0 → Fin S4x64.rank)
  bcast_S4x64_S4x64x1x1_0_1 : S4x64.BroadcastsInDim S4x64x1x1 (![0, 1] : Fin 2 → Fin S4x64x1x1.rank)
  bcast_S4x64x1x1_S4x64x64x64_0_1_2_3 : S4x64x1x1.BroadcastsInDim S4x64x64x64 (![0, 1, 2, 3] : Fin 4 → Fin S4x64x64x64.rank)
  reducesTo_S4x64x64x64_S4x64x64_d1 : S4x64x64x64.ReducesTo [1] S4x64x64
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x64x64x64_0_1_2_3 : S4x1x64x64.BroadcastsInDim S4x64x64x64 (![0, 1, 2, 3] : Fin 4 → Fin S4x64x64x64.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  bitsLt_bf16_f32 : FTy.bits .bf16 < FTy.bits .f32
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S512x4096_S512 : S512x4096.Reduces [1] S512
  shapeCasts_S512_S512x1 : S512.ShapeCasts S512x1
  broadcasts_S512x1_S512x4096 : S512x1.Broadcasts S512x4096
  reduces_S512x1_S1 : S512x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S4x1x1_S4 : S4x1x1.ShapeCasts S4
  dot_S64x512_S64x4096_S512x4096_0_0_1_1_n_n_wf : DotDims.WF S64x512 S64x4096 S512x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S4x64x4096.size a
  hwx0_0 : ∀ i : grid0.Coords, EltTy.bits .f32 = 32 ∨ (Rect.block (s := S4x64x4096) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S4x64x4096.size a
  hwx0_1 : ∀ i : grid0.Coords, EltTy.bits .f32 = 32 ∨ (Rect.block (s := S4x64x4096) S1x64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

def dot_S64x512_S64x4096_S512x4096_0_0_1_1_n_n : DotDims S64x512 S64x4096 S512x4096 where
  lhsContracting := [0]
  rhsContracting := [0]
  lhsNonContracting := [1]
  rhsNonContracting := [1]
  lhsBatch := []
  rhsBatch := []
  wf := dot_S64x512_S64x4096_S512x4096_0_0_1_1_n_n_wf

abbrev win0_0 : Pipeline.Window sig grid0 :=
  Pipeline.Window.ofSpec (Memref.whole main_v17) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x64x64x64 : Shape := ⟨4, ![4, 64, 64, 64]⟩
abbrev S4x64x4096 : Shape := ⟨3, ![4, 64, 4096]⟩
abbrev S_ : Shape := ⟨0, ![]⟩
abbrev S4x64 : Shape := ⟨2, ![4, 64]⟩
abbrev S4x64x1x1 : Shape := ⟨4, ![4, 64, 1, 1]⟩
abbrev S4x64x64 : Shape := ⟨3, ![4, 64, 64]⟩
abbrev S4x1x64x64 : Shape := ⟨4, ![4, 1, 64, 64]⟩
abbrev S4x4096x4096 : Shape := ⟨3, ![4, 4096, 4096]⟩
abbrev S4x4096 : Shape := ⟨2, ![4, 4096]⟩
abbrev S4x4096x1 : Shape := ⟨3, ![4, 4096, 1]⟩
abbrev S4 : Shape := ⟨1, ![4]⟩

abbrev nBuf : Space → Nat
  | .hbm => 68
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S4x64x64x64, .f32⟩
  | .hbm, ⟨2, _⟩ => ⟨S4x64x4096, .f32⟩
  | .hbm, ⟨3, _⟩ => ⟨S_, .f32⟩
  | .hbm, ⟨4, _⟩ => ⟨S4x64, .f32⟩
  | .hbm, ⟨5, _⟩ => ⟨S_, .f32⟩
  | .hbm, ⟨6, _⟩ => ⟨S4x64, .f32⟩
  | .hbm, ⟨7, _⟩ => ⟨S4x64, .f32⟩
  | .hbm, ⟨8, _⟩ => ⟨S4x64x1x1, .f32⟩
  | .hbm, ⟨9, _⟩ => ⟨S4x64x64x64, .f32⟩
  | .hbm, ⟨10, _⟩ => ⟨S4x64x64x64, .f32⟩
  | .hbm, ⟨11, _⟩ => ⟨S4x64x64x64, .f32⟩
  | .hbm, ⟨12, _⟩ => ⟨S4x64x64x64, .f32⟩
  | .hbm, ⟨13, _⟩ => ⟨S4x64x64x64, .f32⟩
  | .hbm, ⟨14, _⟩ => ⟨S_, .f32⟩
  | .hbm, ⟨15, _⟩ => ⟨S4x64x64, .f32⟩
  | .hbm, ⟨16, _⟩ => ⟨S4x1x64x64, .f32⟩
  | .hbm, ⟨17, _⟩ => ⟨S4x1x64x64, .f32⟩
  | .hbm, ⟨18, _⟩ => ⟨S_, .f32⟩
  | .hbm, ⟨19, _⟩ => ⟨S4x1x64x64, .f32⟩
  | .hbm, ⟨20, _⟩ => ⟨S4x1x64x64, .f32⟩
  | .hbm, ⟨21, _⟩ => ⟨S4x64x64x64, .f32⟩
  | .hbm, ⟨22, _⟩ => ⟨S4x64x64x64, .f32⟩
  | .hbm, ⟨23, _⟩ => ⟨S4x64x4096, .f32⟩
  | .hbm, ⟨24, _⟩ => ⟨S4x64x64x64, .f32⟩
  | .hbm, ⟨25, _⟩ => ⟨S_, .f32⟩
  | .hbm, ⟨26, _⟩ => ⟨S4x64x64, .f32⟩
  | .hbm, ⟨27, _⟩ => ⟨S4x1x64x64, .f32⟩
  | .hbm, ⟨28, _⟩ => ⟨S4x1x64x64, .f32⟩
  | .hbm, ⟨29, _⟩ => ⟨S_, .f32⟩
  | .hbm, ⟨30, _⟩ => ⟨S4x1x64x64, .f32⟩
  | .hbm, ⟨31, _⟩ => ⟨S4x1x64x64, .f32⟩
  | .hbm, ⟨32, _⟩ => ⟨S4x64x64x64, .f32⟩
  | .hbm, ⟨33, _⟩ => ⟨S4x64x64x64, .f32⟩
  | .hbm, ⟨34, _⟩ => ⟨S4x64x4096, .f32⟩
  | .hbm, ⟨35, _⟩ => ⟨S4x4096x4096, .f32⟩
  | .hbm, ⟨36, _⟩ => ⟨S_, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S_, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S4x4096, .f32⟩
  | .hbm, ⟨61, _⟩ => ⟨S_, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_cst_13 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  shapeCasts_S4x64x64x64_S4x64x4096 : S4x64x64x64.ShapeCasts S4x64x4096
  reducesTo_S4x64x4096_S4x64_d2 : S4x64x4096.ReducesTo [2] S4x64
  h_S_ : 0 < S_.numel
  bcast_S_S4x64 : S_.BroadcastsInDim S4x64 (![] : Fin 0 → Fin S4x64.rank)
  bcast_S4x64_S4x64x1x1_0_1 : S4x64.BroadcastsInDim S4x64x1x1 (![0, 1] : Fin 2 → Fin S4x64x1x1.rank)
  bcast_S4x64x1x1_S4x64x64x64_0_1_2_3 : S4x64x1x1.BroadcastsInDim S4x64x64x64 (![0, 1, 2, 3] : Fin 4 → Fin S4x64x64x64.rank)
  reducesTo_S4x64x64x64_S4x64x64_d1 : S4x64x64x64.ReducesTo [1] S4x64x64
  bcast_S4x64x64_S4x1x64x64_0_2_3 : S4x64x64.BroadcastsInDim S4x1x64x64 (![0, 2, 3] : Fin 3 → Fin S4x1x64x64.rank)
  bcast_S_S4x1x64x64 : S_.BroadcastsInDim S4x1x64x64 (![] : Fin 0 → Fin S4x1x64x64.rank)
  bcast_S4x1x64x64_S4x64x64x64_0_1_2_3 : S4x1x64x64.BroadcastsInDim S4x64x64x64 (![0, 1, 2, 3] : Fin 4 → Fin S4x64x64x64.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096_S4_d1 : S4x4096.ReducesTo [1] S4
  bcast_S_S4 : S_.BroadcastsInDim S4 (![] : Fin 0 → Fin S4.rank)
  dot_S4x64x4096_S4x64x4096_S4x4096x4096_1_1_2_2_0_0_wf : DotDims.WF S4x64x4096 S4x64x4096 S4x4096x4096 [1] [1] [2] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf

class Facts : Prop extends Facts₀ where

variable [Facts]
-- ==== Proof.Spec.lean ====
/-
  The two row statistics this certificate compares, over the extended reals, as functions of one row of cosine scores
  `s : Fin 4096 → EReal` (the inner products of one normalised query column with every normalised key column).

  The reference forms the distances `d j = 1 - s j`, divides them by their least value plus a small constant, sends
  `(1 - d j / (min d + ε)) / 5` through the exponential, normalises the weights by their sum and takes the greatest
  normalised weight (`rowR`). The kernel takes the greatest score `M` first, forms the one multiplier
  `1 / (1 - M + ε) · (1/5)`, and divides the exponential of `(M - 1)` times it by the sum of the exponentials of
  `(s j - 1)` times it (`rowK`): the common factor `e^{1/5}` of the reference's weights cancels in the quotient, and
  the greatest weight sits at the greatest score because the multiplier is positive. Both then average the 4096 row
  values of a batch and return minus the logarithm of the mean; the kernel adds the rows up block by block, eight
  blocks of 512 rows, in grid order (`accK`).
-/
import Idealize.ShloMosaic.PureOps.Ideal
import Idealize.ShloMosaic.Lib.ValueIdx

noncomputable section

open scoped BigOperators

namespace CxSpec

open Idealize.ShloMosaic Idealize.ShloMosaic.ValueIdx

/-- The normalised features of one side: batch, channel, position. -/
abbrev SX : Shape := ⟨3, ![4, 64, 4096]⟩

/-- The float constants the two programs spell, as the extended reals their patterns denote. -/
abbrev one : EReal := Ideal.ofBits .f32 0x3F800000#32
abbrev epsMin : EReal := Ideal.ofBits .f32 0x3A83126F#32
abbrev five : EReal := Ideal.ofBits .f32 0x40A00000#32
abbrev nTot : EReal := Ideal.ofBits .f32 0x45800000#32
abbrev zero : EReal := Ideal.ofBits .f32 0x00000000#32
abbrev negInf : EReal := Ideal.ofBits .f32 0xFF800000#32
abbrev posInf : EReal := Ideal.ofBits .f32 0x7F800000#32

/-- The score of query position `i` against key position `j` in batch `b`: the inner product over the 64 channels. -/
def score (xn yn : SX.Idx → EReal) (b : Fin 4) (i j : Fin 4096) : EReal :=
  ∑ c : Fin 64, xn (ix3 b c i) * yn (ix3 b c j)

/-- A row's greatest score, folded from `-∞`. -/
def rowMax (s : Fin 4096 → EReal) : EReal := (Finset.univ : Finset (Fin 4096)).fold max negInf s

/-- The kernel's one multiplier of a row: `1 / (1 - M + ε)` times the named fifth. -/
def multK (s : Fin 4096 → EReal) : EReal :=
  Ideal.div one ((one - rowMax s) + epsMin) * (((1 / 5 : ℝ) : ℝ) : EReal)

/-- The kernel's value of a row. -/
def rowK (s : Fin 4096 → EReal) : EReal :=
  Ideal.div (Ideal.exp ((rowMax s - one) * multK s)) (∑ j : Fin 4096, Ideal.exp ((s j - one) * multK s))

/-- A row's least distance, folded from `+∞`. -/
def rowMinD (s : Fin 4096 → EReal) : EReal := (Finset.univ : Finset (Fin 4096)).fold min posInf (fun j => one - s j)

/-- The reference's weight of key `j` in a row. -/
def wR (s : Fin 4096 → EReal) (j : Fin 4096) : EReal :=
  Ideal.exp (Ideal.div (one - Ideal.div (one - s j) (rowMinD s + epsMin)) five)

/-- The reference's value of a row: the greatest normalised weight. -/
def rowR (s : Fin 4096 → EReal) : EReal :=
  (Finset.univ : Finset (Fin 4096)).fold max negInf (fun j => Ideal.div (wR s j) (zero + ∑ j' : Fin 4096, wR s j'))

/-- Row `r` of row block `k` (taken mod 8) is position `512 (k mod 8) + r`. -/
def rowIdx (k : ℕ) (r : Fin 512) : Fin 4096 := ⟨512 * (k % 8) + r.val, by have := r.isLt; have := Nat.mod_lt k (show 8 > 0 by decide); omega⟩

/-- The kernel's partial sum of one row block. -/
def partialK (xn yn : SX.Idx → EReal) (b : Fin 4) (k : ℕ) : EReal :=
  ∑ r : Fin 512, rowK (score xn yn b (rowIdx k r))

/-- The kernel's running sum after row block `k` of a batch: reset to zero before block 0, then one block added at a time. -/
def accK (xn yn : SX.Idx → EReal) (b : Fin 4) : ℕ → EReal
  | 0 => zero + partialK xn yn b 0
  | k + 1 => accK xn yn b k + partialK xn yn b (k + 1)

/-- The kernel's result for batch `b`. -/
def outK (xn yn : SX.Idx → EReal) (b : Fin 4) : EReal :=
  zero - Ideal.log (Ideal.div (accK xn yn b 7) nTot)

/-- The reference's result for batch `b`. -/
def outR (xn yn : SX.Idx → EReal) (b : Fin 4) : EReal :=
  -(Ideal.log (Ideal.div (zero + ∑ i : Fin 4096, rowR (score xn yn b i)) nTot))

/-- What the shared prologue guarantees of a normalised feature array under finite inputs: every entry is a real
    number, and every position's channel vector has Euclidean norm at most one. -/
def IsNormed (x : SX.Idx → EReal) : Prop :=
  ∃ xr : SX.Idx → ℝ, (∀ i, x i = ((xr i : ℝ) : EReal)) ∧ ∀ (b : Fin 4) (n : Fin 4096), ∑ c : Fin 64, (xr (ix3 b c n)) ^ 2 ≤ 1

end CxSpec

end
-- ==== Proof.RowReal.lean ====
/-
  The real-number mathematics of one row.
-/
import Mathlib.Analysis.SpecialFunctions.Exp
import Mathlib.Analysis.SpecialFunctions.Log.Basic
import Mathlib.Algebra.Order.BigOperators.Ring.Finset
import Mathlib.Algebra.Order.Chebyshev
import Mathlib.Data.Fintype.Lattice

noncomputable section

open scoped BigOperators

namespace CxReal

variable {J : Type*} [Fintype J] [Nonempty J]

/-- The greatest score of a row. -/
def rmax (s : J → ℝ) : ℝ := Finset.univ.sup' Finset.univ_nonempty s

/-- The least distance of a row. -/
def dmin (s : J → ℝ) : ℝ := Finset.univ.inf' Finset.univ_nonempty (fun j => 1 - s j)

/-- The kernel's multiplier. -/
def mult (e : ℝ) (s : J → ℝ) : ℝ := 1 / (1 - rmax s + e) * (1 / 5)

/-- The kernel's row value. -/
def rowK (e : ℝ) (s : J → ℝ) : ℝ := Real.exp ((rmax s - 1) * mult e s) / ∑ j, Real.exp ((s j - 1) * mult e s)

/-- The reference's weight. -/
def wR (e : ℝ) (s : J → ℝ) (j : J) : ℝ := Real.exp ((1 - (1 - s j) / (dmin s + e)) / 5)

/-- The reference's row value. -/
def rowR (e : ℝ) (s : J → ℝ) : ℝ := Finset.univ.sup' Finset.univ_nonempty (fun j => wR e s j / ∑ j', wR e s j')

/-- Every score is at most the greatest score. -/
private theorem le_rmax (s : J → ℝ) (j : J) : s j ≤ rmax s :=
  Finset.le_sup' s (Finset.mem_univ j)

/-- The greatest score is attained. -/
private theorem exists_eq_rmax (s : J → ℝ) : ∃ j, rmax s = s j := by
  obtain ⟨j, _, hj⟩ := Finset.exists_mem_eq_sup' Finset.univ_nonempty s
  exact ⟨j, hj⟩

/-- A bound on every score bounds the greatest score. -/
private theorem rmax_le_one (s : J → ℝ) (hs : ∀ j, s j ≤ 1) : rmax s ≤ 1 :=
  Finset.sup'_le _ _ (fun j _ => hs j)

/-- The least of the distances `1 - s j` is one minus the greatest score. -/
theorem dmin_eq (s : J → ℝ) : dmin s = 1 - rmax s := by
  apply le_antisymm
  · obtain ⟨j, hj⟩ := exists_eq_rmax s
    rw [hj]
    exact Finset.inf'_le (fun j => 1 - s j) (Finset.mem_univ j)
  · apply Finset.le_inf'
    intro j _
    have := le_rmax s j
    linarith

/-- The common denominator `1 - M + e` is positive. -/
private theorem denom_pos (e : ℝ) (he : 0 < e) (s : J → ℝ) (hs : ∀ j, s j ≤ 1) :
    0 < 1 - rmax s + e := by
  have := rmax_le_one s hs
  linarith

/-- The multiplier is positive. -/
private theorem mult_pos (e : ℝ) (he : 0 < e) (s : J → ℝ) (hs : ∀ j, s j ≤ 1) :
    0 < mult e s :=
  mul_pos (one_div_pos.mpr (denom_pos e he s hs)) (by norm_num)

/-- The reference's weight is the constant `exp (1/5)` times the kernel's exponential. -/
private theorem wR_eq (e : ℝ) (he : 0 < e) (s : J → ℝ) (hs : ∀ j, s j ≤ 1) (j : J) :
    wR e s j = Real.exp (1 / 5) * Real.exp ((s j - 1) * mult e s) := by
  have hD : (1 - rmax s + e) ≠ 0 := ne_of_gt (denom_pos e he s hs)
  unfold wR mult
  rw [dmin_eq, ← Real.exp_add]
  congr 1
  field_simp
  ring

/-- With every score at most one and a positive `e`, the two row values agree. -/
theorem rowR_eq_rowK (e : ℝ) (he : 0 < e) (s : J → ℝ) (hs : ∀ j, s j ≤ 1) : rowR e s = rowK e s := by
  have hm : 0 < mult e s := mult_pos e he s hs
  have hS : 0 < ∑ j, Real.exp ((s j - 1) * mult e s) :=
    Finset.sum_pos (fun j _ => Real.exp_pos _) Finset.univ_nonempty
  have hE : Real.exp (1 / 5) ≠ 0 := ne_of_gt (Real.exp_pos _)
  -- the constant factor cancels in each quotient
  have hw : ∀ j, wR e s j / ∑ j', wR e s j'
      = Real.exp ((s j - 1) * mult e s) / ∑ j', Real.exp ((s j' - 1) * mult e s) := by
    intro j
    simp only [wR_eq e he s hs]
    rw [← Finset.mul_sum]
    exact mul_div_mul_left _ _ hE
  unfold rowR rowK
  simp only [hw]
  apply le_antisymm
  · -- each quotient is below the one at the greatest score, by monotonicity
    apply Finset.sup'_le
    intro j _
    apply div_le_div_of_nonneg_right _ (le_of_lt hS)
    apply Real.exp_le_exp.mpr
    apply mul_le_mul_of_nonneg_right _ (le_of_lt hm)
    have := le_rmax s j
    linarith
  · -- the greatest score is attained at some index
    obtain ⟨j, hj⟩ := exists_eq_rmax s
    rw [hj]
    exact Finset.le_sup'
      (fun j => Real.exp ((s j - 1) * mult e s) / ∑ j', Real.exp ((s j' - 1) * mult e s))
      (Finset.mem_univ j)

/-- Cauchy–Schwarz: vectors of norm at most one have inner product at most one. -/
theorem inner_le_one {C : Type*} [Fintype C] (x y : C → ℝ) (hx : ∑ c, x c ^ 2 ≤ 1) (hy : ∑ c, y c ^ 2 ≤ 1) :
    ∑ c, x c * y c ≤ 1 := by
  have h := Finset.sum_mul_sq_le_sq_mul_sq Finset.univ x y
  have hy0 : 0 ≤ ∑ c, y c ^ 2 := Finset.sum_nonneg (fun c _ => sq_nonneg _)
  have h1 : (∑ c, x c * y c) ^ 2 ≤ 1 := by
    calc (∑ c, x c * y c) ^ 2 ≤ (∑ c, x c ^ 2) * (∑ c, y c ^ 2) := h
      _ ≤ 1 * 1 := mul_le_mul hx hy hy0 (by norm_num)
      _ = 1 := by norm_num
  by_contra hlt
  rw [not_le] at hlt
  nlinarith

end CxReal

end
-- ==== Proof.RowIdeal.lean ====
/-
  The two row statistics over the extended reals are the real ones on real scores, so the two results agree.
-/
import proofs.«430911_j66589172957474_3_alg».proof.Proof.Spec
import proofs.«430911_j66589172957474_3_alg».proof.Proof.RowReal
import Mathlib.Algebra.BigOperators.Fin
import Mathlib.Logic.Equiv.Fin.Basic

noncomputable section

open scoped BigOperators

namespace CxSpec

open Idealize.ShloMosaic Idealize.ShloMosaic.ValueIdx

/-! ### The constants as extended reals -/

theorem one_eq : one = ((1 : ℝ) : EReal) := by
  simp [Ideal.ofBits, Ideal.ieee, -EReal.coe_mul]; norm_num

theorem five_eq : five = ((5 : ℝ) : EReal) := by
  simp [Ideal.ofBits, Ideal.ieee, -EReal.coe_mul]; norm_num

theorem nTot_eq : nTot = ((4096 : ℝ) : EReal) := by
  simp [Ideal.ofBits, Ideal.ieee, -EReal.coe_mul]; norm_num

theorem zero_eq : zero = 0 := by
  simp [Ideal.ofBits, Ideal.ieee]

theorem negInf_eq : negInf = ⊥ := by
  simp [Ideal.ofBits, Ideal.ieee]

theorem posInf_eq : posInf = ⊤ := by
  simp [Ideal.ofBits, Ideal.ieee]

/-- The small constant is a positive real; only its sign matters. -/
theorem epsMin_eq : ∃ e : ℝ, 0 < e ∧ epsMin = ((e : ℝ) : EReal) := by
  simp [Ideal.ofBits, Ideal.ieee, -EReal.coe_mul]

/-! ### Coercion through finite sums, maxima and minima -/

/-- The coercion of a finite real sum is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- Folding the maximum from `-∞` over real values gives the real supremum. -/
theorem fold_max_coe {ι : Type*} (f : ι → ℝ) {t : Finset ι} (h : t.Nonempty) :
    t.fold max (⊥ : EReal) (fun j => ((f j : ℝ) : EReal)) = ((t.sup' h f : ℝ) : EReal) := by
  induction h using Finset.Nonempty.cons_induction with
  | singleton a => rw [Finset.fold_singleton, Finset.sup'_singleton, max_bot_right]
  | cons a s ha hs ih => rw [Finset.fold_cons, ih, Finset.sup'_cons hs, coe_max]

/-- Folding the minimum from `+∞` over real values gives the real infimum. -/
theorem fold_min_coe {ι : Type*} (f : ι → ℝ) {t : Finset ι} (h : t.Nonempty) :
    t.fold min (⊤ : EReal) (fun j => ((f j : ℝ) : EReal)) = ((t.inf' h f : ℝ) : EReal) := by
  induction h using Finset.Nonempty.cons_induction with
  | singleton a => rw [Finset.fold_singleton, Finset.inf'_singleton, min_top_right]
  | cons a s ha hs ih => rw [Finset.fold_cons, ih, Finset.inf'_cons hs, coe_min]

/-! ### One row of real scores -/

section Row

variable (sr : Fin 4096 → ℝ)

theorem rowMax_coe : rowMax (fun j => ((sr j : ℝ) : EReal)) = ((CxReal.rmax sr : ℝ) : EReal) := by
  rw [rowMax, negInf_eq, fold_max_coe sr Finset.univ_nonempty]; rfl

theorem rowMinD_coe : rowMinD (fun j => ((sr j : ℝ) : EReal)) = ((CxReal.dmin sr : ℝ) : EReal) := by
  have h : (fun j => one - ((sr j : ℝ) : EReal)) = fun j => (((1 - sr j : ℝ)) : EReal) := by
    funext j; rw [one_eq, EReal.coe_sub]
  rw [rowMinD, posInf_eq, h, fold_min_coe (fun j => 1 - sr j) Finset.univ_nonempty]; rfl

/-- The greatest score of a row of scores at most one is at most one. -/
theorem rmax_le_one (hs : ∀ j, sr j ≤ 1) : CxReal.rmax sr ≤ 1 :=
  Finset.sup'_le _ _ fun j _ => hs j

variable {sr}

theorem multK_coe {e : ℝ} (he : 0 < e) (hE : epsMin = ((e : ℝ) : EReal)) (hs : ∀ j, sr j ≤ 1) :
    multK (fun j => ((sr j : ℝ) : EReal)) = ((CxReal.mult e sr : ℝ) : EReal) := by
  have hM := rmax_le_one sr hs
  have hne : 1 - CxReal.rmax sr + e ≠ 0 := by linarith
  rw [multK, rowMax_coe, one_eq, hE, ← EReal.coe_sub, ← EReal.coe_add, Ideal.div_coe hne, ← EReal.coe_mul,
    ← EReal.coe_mul, CxReal.mult, one_mul]

theorem rowK_coe {e : ℝ} (he : 0 < e) (hE : epsMin = ((e : ℝ) : EReal)) (hs : ∀ j, sr j ≤ 1) :
    rowK (fun j => ((sr j : ℝ) : EReal)) = ((CxReal.rowK e sr : ℝ) : EReal) := by
  have hsum : (∑ j : Fin 4096, Ideal.exp ((((sr j : ℝ) : EReal) - one) * multK (fun j => ((sr j : ℝ) : EReal))))
      = ((∑ j : Fin 4096, Real.exp ((sr j - 1) * CxReal.mult e sr) : ℝ) : EReal) := by
    rw [coe_sum]
    refine Finset.sum_congr rfl fun j _ => ?_
    rw [multK_coe he hE hs, one_eq, ← EReal.coe_sub, ← EReal.coe_mul, Ideal.exp_coe]
  have hpos : (0 : ℝ) < ∑ j : Fin 4096, Real.exp ((sr j - 1) * CxReal.mult e sr) :=
    Finset.sum_pos (fun j _ => Real.exp_pos _) Finset.univ_nonempty
  rw [rowK, hsum, rowMax_coe, multK_coe he hE hs, one_eq, ← EReal.coe_sub, ← EReal.coe_mul, Ideal.exp_coe,
    Ideal.div_coe hpos.ne', ← EReal.coe_mul, CxReal.rowK, ← div_eq_mul_one_div]

theorem wR_coe {e : ℝ} (he : 0 < e) (hE : epsMin = ((e : ℝ) : EReal)) (hs : ∀ j, sr j ≤ 1) (j : Fin 4096) :
    wR (fun j => ((sr j : ℝ) : EReal)) j = ((CxReal.wR e sr j : ℝ) : EReal) := by
  have hM := rmax_le_one sr hs
  have hne : CxReal.dmin sr + e ≠ 0 := by rw [CxReal.dmin_eq]; linarith
  have h5 : (5 : ℝ) ≠ 0 := by norm_num
  rw [wR, rowMinD_coe, one_eq, five_eq, hE, ← EReal.coe_sub, ← EReal.coe_add, Ideal.div_coe hne, ← EReal.coe_mul,
    ← EReal.coe_sub, Ideal.div_coe h5, ← EReal.coe_mul, Ideal.exp_coe, CxReal.wR]
  congr 2
  ring

theorem rowR_coe {e : ℝ} (he : 0 < e) (hE : epsMin = ((e : ℝ) : EReal)) (hs : ∀ j, sr j ≤ 1) :
    rowR (fun j => ((sr j : ℝ) : EReal)) = ((CxReal.rowR e sr : ℝ) : EReal) := by
  have hsum : (zero + ∑ j' : Fin 4096, wR (fun j => ((sr j : ℝ) : EReal)) j')
      = ((∑ j' : Fin 4096, CxReal.wR e sr j' : ℝ) : EReal) := by
    rw [zero_eq, zero_add, coe_sum]
    exact Finset.sum_congr rfl fun j _ => wR_coe he hE hs j
  have hpos : (0 : ℝ) < ∑ j' : Fin 4096, CxReal.wR e sr j' :=
    Finset.sum_pos (fun j _ => Real.exp_pos _) Finset.univ_nonempty
  have hfun : (fun j => Ideal.div (wR (fun j => ((sr j : ℝ) : EReal)) j)
        (zero + ∑ j' : Fin 4096, wR (fun j => ((sr j : ℝ) : EReal)) j'))
      = fun j => (((CxReal.wR e sr j / ∑ j' : Fin 4096, CxReal.wR e sr j' : ℝ)) : EReal) := by
    funext j
    rw [hsum, wR_coe he hE hs j, Ideal.div_coe hpos.ne', ← EReal.coe_mul, ← div_eq_mul_one_div]
  rw [rowR, negInf_eq, hfun, fold_max_coe _ Finset.univ_nonempty]; rfl

/-- On a row of real scores at most one the two row values agree. -/
theorem rowR_eq_rowK_coe (hs : ∀ j, sr j ≤ 1) :
    rowR (fun j => ((sr j : ℝ) : EReal)) = rowK (fun j => ((sr j : ℝ) : EReal)) := by
  obtain ⟨e, he, hE⟩ := epsMin_eq
  rw [rowR_coe he hE hs, rowK_coe he hE hs, CxReal.rowR_eq_rowK e he sr hs]

end Row

/-! ### The scores of normalised features -/

/-- The scores of normalised features are real numbers at most one, so the two row values agree on every row. -/
theorem rowR_score_eq (xn yn : SX.Idx → EReal) (hx : IsNormed xn) (hy : IsNormed yn) (b : Fin 4) (i : Fin 4096) :
    rowR (score xn yn b i) = rowK (score xn yn b i) := by
  obtain ⟨xr, hxr, hxn⟩ := hx
  obtain ⟨yr, hyr, hyn⟩ := hy
  have hsc : score xn yn b i
      = fun j => ((∑ c : Fin 64, xr (ix3 b c i) * yr (ix3 b c j) : ℝ) : EReal) := by
    funext j
    rw [score, coe_sum]
    refine Finset.sum_congr rfl fun c _ => ?_
    rw [hxr, hyr, EReal.coe_mul]
  rw [hsc]
  exact rowR_eq_rowK_coe fun j =>
    CxReal.inner_le_one (fun c => xr (ix3 b c i)) (fun c => yr (ix3 b c j)) (hxn b i) (hyn b j)

/-! ### The eight row blocks cover the rows once -/

/-- Summing block by block, eight blocks of 512 rows, is summing over all 4096 rows. -/
theorem sum_blocks {A : Type*} [AddCommMonoid A] (g : Fin 4096 → A) :
    ∑ k : Fin 8, ∑ r : Fin 512, g (rowIdx k.val r) = ∑ i : Fin 4096, g i := by
  have hidx : ∀ (k : Fin 8) (r : Fin 512), rowIdx k.val r = (finProdFinEquiv (k, r) : Fin (8 * 512)) := by
    intro k r
    apply Fin.ext
    show 512 * (k.val % 8) + r.val = r.val + 512 * k.val
    rw [Nat.mod_eq_of_lt k.isLt, Nat.add_comm]
  rw [← Equiv.sum_comp (finProdFinEquiv : Fin 8 × Fin 512 ≃ Fin (8 * 512)) g, Fintype.sum_prod_type]
  exact Finset.sum_congr rfl fun k _ => Finset.sum_congr rfl fun r _ => congrArg g (hidx k r)

theorem accK_eq (xn yn : SX.Idx → EReal) (b : Fin 4) :
    accK xn yn b 7 = ∑ i : Fin 4096, rowK (score xn yn b i) := by
  have h : accK xn yn b 7 = ∑ k : Fin 8, partialK xn yn b k.val := by
    rw [Fin.sum_univ_eight]
    show zero + partialK xn yn b 0 + partialK xn yn b 1 + partialK xn yn b 2 + partialK xn yn b 3
      + partialK xn yn b 4 + partialK xn yn b 5 + partialK xn yn b 6 + partialK xn yn b 7 = _
    rw [zero_eq, zero_add]
    rfl
  rw [h]
  exact sum_blocks fun i => rowK (score xn yn b i)

/-- On normalised features the kernel's and the reference's results agree, batch by batch. -/
theorem out_eq (xn yn : SX.Idx → EReal) (hx : IsNormed xn) (hy : IsNormed yn) (b : Fin 4) :
    outK xn yn b = outR xn yn b := by
  have hsum : (∑ i : Fin 4096, rowR (score xn yn b i)) = ∑ i : Fin 4096, rowK (score xn yn b i) :=
    Finset.sum_congr rfl fun i _ => rowR_score_eq xn yn hx hy b i
  rw [outK, outR, accK_eq, zero_eq, zero_add, zero_sub, hsum]

end CxSpec

end
-- ==== Proof.KPayload.lean ====
/-
  The kernel body's arithmetic read at an index, over the extended reals.
-/
import proofs.«430911_j66589172957474_3_alg».proof.Proof.Spec
import proofs.«430911_j66589172957474_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KPayload

open Idealize.ShloMosaic Idealize.ShloMosaic.ValueIdx Cert.KernelIdeal Cert.KernelIdeal.Gen

/-- The named fifth denotes the rational 1/5 at the ideal instance. -/
theorem inv_5 : Named.named (F := Ideal) Cert.KernelIdeal.κ "inv_5" (φ := .f32) 0x3E4CCCCD#32 = ((1 / 5 : ℝ) : EReal) :=
  IdealRules.named_const.ideal_named_scalar _ _ _ _ rfl

/-! ## Layout operations at an index -/

/-- A column `[a]` cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The score matrix -/

theorem lhs_ax0 (i : S512x4096.Idx) (q : dot_S64x512_S64x4096_S512x4096_0_0_1_1_n_n.contr.Idx) :
    (dot_S64x512_S64x4096_S512x4096_0_0_1_1_n_n.lhsIdx i q 0).val = (q ⟨0, by decide⟩).val :=
  dot_S64x512_S64x4096_S512x4096_0_0_1_1_n_n.lhsIdx_val_of_single rfl i q
theorem lhs_ax1 (i : S512x4096.Idx) (q : dot_S64x512_S64x4096_S512x4096_0_0_1_1_n_n.contr.Idx) :
    (dot_S64x512_S64x4096_S512x4096_0_0_1_1_n_n.lhsIdx i q 1).val = (i 0).val := by
  unfold DotDims.lhsIdx
  rw [dif_neg (show ¬(1 : Fin S64x512.rank) ∈ dot_S64x512_S64x4096_S512x4096_0_0_1_1_n_n.lhsBatch by decide), dif_pos (show (1 : Fin S64x512.rank) ∈ dot_S64x512_S64x4096_S512x4096_0_0_1_1_n_n.lhsNonContracting by decide)]
  rfl
theorem rhs_ax0 (i : S512x4096.Idx) (q : dot_S64x512_S64x4096_S512x4096_0_0_1_1_n_n.contr.Idx) :
    (dot_S64x512_S64x4096_S512x4096_0_0_1_1_n_n.rhsIdx i q 0).val = (q ⟨0, by decide⟩).val :=
  dot_S64x512_S64x4096_S512x4096_0_0_1_1_n_n.rhsIdx_val_of_single rfl i q
theorem rhs_ax1 (i : S512x4096.Idx) (q : dot_S64x512_S64x4096_S512x4096_0_0_1_1_n_n.contr.Idx) :
    (dot_S64x512_S64x4096_S512x4096_0_0_1_1_n_n.rhsIdx i q 1).val = (i 1).val := by
  unfold DotDims.rhsIdx
  rw [dif_neg (show ¬(1 : Fin S64x4096.rank) ∈ dot_S64x512_S64x4096_S512x4096_0_0_1_1_n_n.rhsBatch by decide), dif_pos (show (1 : Fin S64x4096.rank) ∈ dot_S64x512_S64x4096_S512x4096_0_0_1_1_n_n.rhsNonContracting by decide)]
  rfl

/-- The product of the two blocks, contracting the channel axis of both into a zero accumulator, read at `(r, jj)`. -/
theorem matmul_at (y0 : FVec Ideal S64x512 .bf16) (y1 : FVec Ideal S64x4096 .bf16) (r : Fin 512) (jj : Fin 4096) :
    matmul (F := Ideal) dot_S64x512_S64x4096_S512x4096_0_0_1_1_n_n none y0 y1 (constant (F := Ideal) S512x4096 .f32 0x00000000#32) (ix2 r jj)
      = ∑ c : Fin 64, y0 (ix2 c r) * y1 (ix2 c jj) := by
  simp only [matmul]
  rw [Ideal.matmul_constant_zero_apply, ← Equiv.sum_comp (ValueIdx.contrEquiv1 dot_S64x512_S64x4096_S512x4096_0_0_1_1_n_n 64 rfl rfl).symm]
  refine Finset.sum_congr rfl fun k _ => ?_
  have hk := ValueIdx.contrEquiv1_symm_val dot_S64x512_S64x4096_S512x4096_0_0_1_1_n_n 64 rfl rfl k
  have el : dot_S64x512_S64x4096_S512x4096_0_0_1_1_n_n.lhsIdx (ix2 r jj) ((ValueIdx.contrEquiv1 dot_S64x512_S64x4096_S512x4096_0_0_1_1_n_n 64 rfl rfl).symm k) = ix2 k r := funext fun a => Fin.ext (by
    match a with
    | ⟨0, _⟩ => exact (lhs_ax0 _ _).trans hk
    | ⟨1, _⟩ => exact lhs_ax1 _ _)
  have er : dot_S64x512_S64x4096_S512x4096_0_0_1_1_n_n.rhsIdx (ix2 r jj) ((ValueIdx.contrEquiv1 dot_S64x512_S64x4096_S512x4096_0_0_1_1_n_n 64 rfl rfl).symm k) = ix2 k jj := funext fun a => Fin.ext (by
    match a with
    | ⟨0, _⟩ => exact (rhs_ax0 _ _).trans hk
    | ⟨1, _⟩ => exact rhs_ax1 _ _)
  rw [el, er]

/-! ## The reductions -/

/-- Row `r` with column `k` put back: the index a reduction over the columns reads. -/
theorem lift_cols (r : Fin 512) (k : Fin 4096) :
    reduces_S512x4096_S512.lift (ix1 r) k = ix2 r k := by
  funext a; refine Fin.ext ?_
  match a with
  | ⟨0, _⟩ => rfl
  | ⟨1, _⟩ => rfl

/-- The one output index with row `k` put back: the index the reduction over the rows reads. -/
theorem lift_rows (u : Fin 1) (k : Fin 512) :
    reduces_S512x1_S1.lift (ix1 u) k = ix2 k (0 : Fin 1) := by
  funext a; refine Fin.ext ?_
  match a with
  | ⟨0, _⟩ => rfl
  | ⟨1, _⟩ => show (u : ℕ) = 0; omega

/-- The greatest entry of row `r`, folded from minus infinity. -/
theorem rowMax_at (v : FVec Ideal S512x4096 .f32) (r : Fin 512) :
    multiReduction (F := Ideal) .maximumf [1] S512 v 0xFF800000#32 reduces_S512x4096_S512 (.inl rfl) rfl (ix1 r)
      = CxSpec.rowMax (fun jj : Fin 4096 => v (ix2 r jj)) := by
  refine (Ideal.multiReduction_maximumf_single v _ reduces_S512x4096_S512 (.inl rfl) rfl (ix1 r)).trans ?_
  have e : (v ∘ reduces_S512x4096_S512.lift (ix1 r)) = fun jj : Fin 4096 => v (ix2 r jj) :=
    funext fun jj => congrArg v (lift_cols r jj)
  rw [e]
  rfl

/-- The sum of row `r`. -/
theorem rowSum_at (v : FVec Ideal S512x4096 .f32) (r : Fin 512) :
    multiReduction (F := Ideal) .add [1] S512 v 0x00000000#32 reduces_S512x4096_S512 (.inl rfl) rfl (ix1 r)
      = ∑ jj : Fin 4096, v (ix2 r jj) := by
  refine (Ideal.multiReduction_add_single v _ reduces_S512x4096_S512 (.inl rfl) rfl (ix1 r)).trans ?_
  exact Finset.sum_congr rfl fun jj _ => congrArg v (lift_cols r jj)

/-- The sum of a column vector over its rows. -/
theorem colSum_at (v : FVec Ideal S512x1 .f32) (u : Fin 1) :
    multiReduction (F := Ideal) .add [0] S1 v 0x00000000#32 reduces_S512x1_S1 (.inl rfl) rfl (ix1 u)
      = ∑ r : Fin 512, v (ix2 r (0 : Fin 1)) := by
  refine (Ideal.multiReduction_add_single v _ reduces_S512x1_S1 (.inl rfl) rfl (ix1 u)).trans ?_
  exact Finset.sum_congr rfl fun r _ => congrArg v (lift_rows u r)

/-! ## The body's stages, as functions of the score matrix -/

/-- The splat of the constant one, of the small constant, and of the named fifth. -/
def oneV (s : Shape) : FVec Ideal s .f32 := broadcast s (Scalar.ofBits (F := Ideal) .f32 0x3F800000#32)
def epsV (s : Shape) : FVec Ideal s .f32 := broadcast s (Scalar.ofBits (F := Ideal) .f32 0x3A83126F#32)
def fifthV (s : Shape) : FVec Ideal s .f32 := broadcast s (Named.named (F := Ideal) κ "inv_5" (φ := .f32) 0x3E4CCCCD#32)

/-- The scores of the query block against the key block. -/
def scoreMat (x0 : Vec Ideal S1x64x512 .f32) (x1 : Vec Ideal S1x64x4096 .f32) : FVec Ideal S512x4096 .f32 :=
  matmul (F := Ideal) dot_S64x512_S64x4096_S512x4096_0_0_1_1_n_n none
    (truncf .bf16 (shapeCast S64x512 x0 shapeCasts_S1x64x512_S64x512) bitsLt_bf16_f32)
    (truncf .bf16 (shapeCast S64x4096 x1 shapeCasts_S1x64x4096_S64x4096) bitsLt_bf16_f32)
    (constant (F := Ideal) S512x4096 .f32 0x00000000#32)

/-- The column of row maxima. -/
def maxCol (v : FVec Ideal S512x4096 .f32) : FVec Ideal S512x1 .f32 :=
  shapeCast S512x1 (multiReduction (F := Ideal) .maximumf [1] S512 v 0xFF800000#32 reduces_S512x4096_S512 (.inl rfl) rfl) shapeCasts_S512_S512x1

/-- The column of multipliers, from the column of maxima. -/
def multCol (m : FVec Ideal S512x1 .f32) : FVec Ideal S512x1 .f32 :=
  mulf (divf (oneV S512x1) (addf (subf (oneV S512x1) m) (epsV S512x1))) (fifthV S512x1)

/-- The matrix of exponentials, from the scores and the column of multipliers. -/
def expMat (v : FVec Ideal S512x4096 .f32) (w : FVec Ideal S512x1 .f32) : FVec Ideal S512x4096 .f32 :=
  exp (mulf (subf v (oneV S512x4096)) (broadcastTo S512x4096 w broadcasts_S512x1_S512x4096))

/-- The column of row sums. -/
def sumCol (e : FVec Ideal S512x4096 .f32) : FVec Ideal S512x1 .f32 :=
  shapeCast S512x1 (multiReduction (F := Ideal) .add [1] S512 e 0x00000000#32 reduces_S512x4096_S512 (.inl rfl) rfl) shapeCasts_S512_S512x1

/-- The column of row values. -/
def rowCol (v : FVec Ideal S512x4096 .f32) : FVec Ideal S512x1 .f32 :=
  divf (exp (mulf (subf (maxCol v) (oneV S512x1)) (multCol (maxCol v)))) (sumCol (expMat v (multCol (maxCol v))))

/-- The body's accumulated value is the scratch's plus the sum of the column of row values. -/
theorem pay4_stages (x0 : Vec Ideal S1x64x512 .f32) (x1 : Vec Ideal S1x64x4096 .f32) (a : Vec Ideal S1x1 .f32) :
    k0_pay4 (F := Ideal) x0 x1 a
      = addf a (shapeCast S1x1 (multiReduction (F := Ideal) .add [0] S1 (rowCol (scoreMat x0 x1)) 0x00000000#32 reduces_S512x1_S1 (.inl rfl) rfl) shapeCasts_S1_S1x1) := rfl

/-! ## The stages at an index -/

theorem exp_at {s : Shape} (x : FVec Ideal s .f32) (i : s.Idx) : exp x i = Ideal.exp (x i) := rfl
theorem oneV_at {s : Shape} (i : s.Idx) : oneV s i = CxSpec.one := rfl

theorem scoreMat_at (x0 : Vec Ideal S1x64x512 .f32) (x1 : Vec Ideal S1x64x4096 .f32) (r : Fin 512) (jj : Fin 4096) :
    scoreMat x0 x1 (ix2 r jj) = ∑ c : Fin 64, x0 (ix3 (0 : Fin 1) c r) * x1 (ix3 (0 : Fin 1) c jj) := by
  unfold scoreMat
  refine (matmul_at _ _ r jj).trans ?_
  refine Finset.sum_congr rfl fun c _ => ?_
  have e0 : shapeCast S64x512 x0 shapeCasts_S1x64x512_S64x512 (ix2 c r) = x0 (ix3 (0 : Fin 1) c r) :=
    shapeCast_1ab_ab_apply x0 _ c r
  have e1 : shapeCast S64x4096 x1 shapeCasts_S1x64x4096_S64x4096 (ix2 c jj) = x1 (ix3 (0 : Fin 1) c jj) :=
    shapeCast_1ab_ab_apply x1 _ c jj
  show shapeCast S64x512 x0 shapeCasts_S1x64x512_S64x512 (ix2 c r) * shapeCast S64x4096 x1 shapeCasts_S1x64x4096_S64x4096 (ix2 c jj) = _
  rw [e0, e1]

theorem maxCol_at (v : FVec Ideal S512x4096 .f32) (r : Fin 512) (u : Fin 1) :
    maxCol v (ix2 r u) = CxSpec.rowMax (fun jj : Fin 4096 => v (ix2 r jj)) :=
  (shapeCast_a_a1_apply _ shapeCasts_S512_S512x1 r u).trans (rowMax_at v r)

theorem sumCol_at (e : FVec Ideal S512x4096 .f32) (r : Fin 512) (u : Fin 1) :
    sumCol e (ix2 r u) = ∑ jj : Fin 4096, e (ix2 r jj) :=
  (shapeCast_a_a1_apply _ shapeCasts_S512_S512x1 r u).trans (rowSum_at e r)

theorem multCol_at (m : FVec Ideal S512x1 .f32) (r : Fin 512) (u : Fin 1) :
    multCol m (ix2 r u)
      = Ideal.div CxSpec.one ((CxSpec.one - m (ix2 r u)) + CxSpec.epsMin) * (((1 / 5 : ℝ) : ℝ) : EReal) := by
  show Ideal.div CxSpec.one ((CxSpec.one - m (ix2 r u)) + CxSpec.epsMin)
      * Named.named (F := Ideal) κ "inv_5" (φ := .f32) 0x3E4CCCCD#32 = _
  rw [inv_5]

theorem expMat_at (v : FVec Ideal S512x4096 .f32) (w : FVec Ideal S512x1 .f32) (r : Fin 512) (jj : Fin 4096) :
    expMat v w (ix2 r jj) = Ideal.exp ((v (ix2 r jj) - CxSpec.one) * w (ix2 r (0 : Fin 1))) := by
  show Ideal.exp ((v (ix2 r jj) - CxSpec.one) * broadcastTo S512x4096 w broadcasts_S512x1_S512x4096 (ix2 r jj)) = _
  rw [broadcastTo_a1_ab_apply w broadcasts_S512x1_S512x4096 r jj]

/-- The column of row values at row `r` is the kernel's row value of that row of the matrix. -/
theorem rowCol_at (v : FVec Ideal S512x4096 .f32) (r : Fin 512) :
    rowCol v (ix2 r (0 : Fin 1)) = CxSpec.rowK (fun jj : Fin 4096 => v (ix2 r jj)) := by
  unfold rowCol
  rw [divf_apply, sumCol_at, exp_at, mulf_apply, subf_apply, multCol_at, maxCol_at, oneV_at]
  simp only [expMat_at, multCol_at, maxCol_at]
  rfl

/-! ## The payloads -/

/-- The accumulated value the body leaves: what the scratch held plus the sum, over the 512 rows of the query block,
    of the kernel's row value of that row's scores against the whole key block. -/
theorem pay4_apply (x0 : Vec Ideal S1x64x512 .f32) (x1 : Vec Ideal S1x64x4096 .f32) (a : Vec Ideal S1x1 .f32) (j : S1x1.Idx) :
    k0_pay4 (F := Ideal) x0 x1 a j
      = a j + ∑ r : Fin 512, CxSpec.rowK (fun jj : Fin 4096 => ∑ c : Fin 64, x0 (ix3 0 c r) * x1 (ix3 0 c jj)) := by
  obtain ⟨p, q, rfl⟩ : ∃ (p : Fin 1) (q : Fin 1), j = ix2 p q := ⟨j 0, j 1, eq_ix2 j⟩
  rw [pay4_stages]
  refine congrArg (fun z => a (ix2 p q) + z) ?_
  refine (shapeCast_a_1a_apply _ shapeCasts_S1_S1x1 p q).trans ?_
  refine (colSum_at _ q).trans ?_
  refine Finset.sum_congr rfl fun r _ => ?_
  rw [rowCol_at]
  simp only [scoreMat_at]

/-- The value written to the output at a batch's last block: minus the logarithm of the mean. -/
theorem pay2_apply (a : Vec Ideal S1x1 .f32) (j : S1x1x1.Idx) :
    k0_pay2 (F := Ideal) a j = CxSpec.zero - Ideal.log (Ideal.div (a (ix2 0 0)) CxSpec.nTot) := by
  obtain ⟨p, q, s, rfl⟩ : ∃ (p : Fin 1) (q : Fin 1) (s : Fin 1), j = ix3 p q s := ⟨j 0, j 1, j 2, eq_ix3 j⟩
  unfold k0_pay2
  refine (shapeCast_ab_1ab_apply _ shapeCasts_S1x1_S1x1x1 p q s).trans ?_
  obtain rfl : q = 0 := Subsingleton.elim _ _
  obtain rfl : s = 0 := Subsingleton.elim _ _
  rfl

/-- The reset value. -/
theorem pay3_apply (j : S1x1.Idx) : k0_pay3 (F := Ideal) j = CxSpec.zero := by
  unfold k0_pay3
  rw [shapeCast_self]
  rfl

/-- The stored accumulator is the accumulator. -/
theorem pay1_eq (a : FVec Ideal S1x1 .f32) : k0_pay1 (F := Ideal) a = a := by
  exact shapeCast_self a _

end Cert.KernelIdeal.KPayload

end
-- ==== Proof.KBlocks.lean ====
/-
  The blocks the pipeline stages, read off the normalised feature arrays as the region finds them.
-/
import proofs.«430911_j66589172957474_3_alg».proof.Proof.Spec
import proofs.«430911_j66589172957474_3_alg».proof.Proof.Gen.KernelIdeal.Frame
import Idealize.ShloMosaic.Lib.Pipeline.Value
import Idealize.ShloMosaic.Lib.ValueIdx

noncomputable section

open scoped BigOperators

namespace Cert.KernelIdeal.KBlocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The normalised query features and key features as the region finds them. -/
abbrev xArr (c : Dev nD) : Vec Ideal S4x64x4096 .f32 := V m c main_v17
abbrev yArr (c : Dev nD) : Vec Ideal S4x64x4096 .f32 := V m c main_v26
/-- The query block and the key block of a grid point. -/
abbrev xBlk (c : Dev nD) (t : Fin cfg0.N) : Vec Ideal S1x64x512 .f32 := iblk m c 0 t
abbrev yBlk (c : Dev nD) (t : Fin cfg0.N) : Vec Ideal S1x64x4096 .f32 := iblk m c 1 t

/-- Point `t` is row block `t mod 8` of batch `t / 8`. -/
def batchOf (t : Fin cfg0.N) : Fin 4 := ⟨t.val / 8, by have := t.isLt; have h : cfg0.N = 32 := N_0; omega⟩

/-- The query window's block index at point `t`: batch `t / 8`, all channels, row block `t mod 8`. -/
theorem index_x : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)

/-- The key window's block index at point `t`: batch `t / 8`, everything else whole. -/
theorem index_y : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

/-- The query block at point `t` holds positions `512 (t mod 8) + r` of batch `t / 8`. -/
theorem xBlk_apply (c : Dev nD) (t : Fin cfg0.N) (cc : Fin 64) (r : Fin 512) :
    xBlk m c t (ix3 0 cc r) = xArr m c (ix3 (batchOf t) cc (CxSpec.rowIdx t.val r)) := by
  obtain ⟨h0, h1, h2⟩ := index_x t
  unfold xBlk xArr iblk
  rw [View.read_apply]
  show V m c main_v17 _ = V m c main_v17 _
  congr 1
  funext a
  apply Fin.ext
  match a with
  | ⟨0, _⟩ => show win0_0.index t 0 * 1 + 1 * 0 = t.val / 8; rw [h0]; omega
  | ⟨1, _⟩ => show win0_0.index t 1 * 64 + 1 * cc.val = cc.val; rw [h1]; omega
  | ⟨2, _⟩ => show win0_0.index t 2 * 512 + 1 * r.val = 512 * (t.val % 8) + r.val; rw [h2]; omega

/-- The key block at point `t` holds every position of batch `t / 8`. -/
theorem yBlk_apply (c : Dev nD) (t : Fin cfg0.N) (cc : Fin 64) (jj : Fin 4096) :
    yBlk m c t (ix3 0 cc jj) = yArr m c (ix3 (batchOf t) cc jj) := by
  obtain ⟨h0, h1, h2⟩ := index_y t
  unfold yBlk yArr iblk
  rw [View.read_apply]
  show V m c main_v26 _ = V m c main_v26 _
  congr 1
  funext a
  apply Fin.ext
  match a with
  | ⟨0, _⟩ => show win0_1.index t 0 * 1 + 1 * 0 = t.val / 8; rw [h0]; omega
  | ⟨1, _⟩ => show win0_1.index t 1 * 64 + 1 * cc.val = cc.val; rw [h1]; omega
  | ⟨2, _⟩ => show win0_1.index t 2 * 4096 + 1 * jj.val = jj.val; rw [h2]; omega

end Cert.KernelIdeal.KBlocks

end
-- ==== Proof.KAcc.lean ====
/-
  The carried accumulator point by point: what each control case of the kernel body leaves in the scratch and in the
  output block, and by induction over the grid the running sum of a batch's row blocks; at a batch's last block the
  output block holds the kernel's statistic of that batch.
-/
import proofs.«430911_j66589172957474_3_alg».proof.Proof.Spec
import proofs.«430911_j66589172957474_3_alg».proof.Proof.KPayload
import proofs.«430911_j66589172957474_3_alg».proof.Proof.KBlocks
import proofs.«430911_j66589172957474_3_alg».proof.Proof.Gen.KernelIdeal.Frame
import Idealize.ShloMosaic.Lib.Pipeline.Value
import Idealize.ShloMosaic.Lib.ValueIdx
import Idealize.ShloMosaic.Lib.Tactic

noncomputable section

open scoped BigOperators

namespace Cert.KernelIdeal.KAcc

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KBlocks

variable (m : (ℓ : Loc nD τ sig) → Buf (Elt Ideal) ℓ)

/-- The zero offsets of the rank-2 and rank-3 whole-buffer accesses. -/
theorem off2 : (![0, 0] : Fin 2 → Nat) = fun _ => 0 := funext fun a => by fin_cases a <;> rfl
theorem off3 : (![0, 0, 0] : Fin 3 → Nat) = fun _ => 0 := funext fun a => by fin_cases a <;> rfl

/-- A middle row block of a batch: the scratch ends at what it held plus the block's partial sum. -/
theorem sout_B (c : Dev nD) (i : grid0.Coords) (a2 : Memref sig .tc .vmem S1x64x512 .f32) (h2 : a2.IsWhole) (a3 : Memref sig .tc .vmem S1x64x4096 .f32) (h3 : a3.IsWhole) (a4 : Memref sig .tc .vmem S1x1x1 .f32) (h4 : a4.IsWhole) (a5 : Memref sig .tc .vmem S1x1 .f32) (h5 : a5.IsWhole) (hc0 : ¬cond0_0 i) (hc1 : ¬cond0_1 i)
    (x0 : Vec Ideal S1x64x512 .f32) (x1 : Vec Ideal S1x64x4096 .f32) (xs0 : Vec Ideal S1x1 .f32) :
    sout0_B_0 (F := Ideal) c i a2 h2 a3 h3 a4 h4 a5 h5 hc0 hc1 x0 x1 xs0 = k0_pay1 (k0_pay4 x0 x1 xs0) := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero off2]
  simp only [View.readAt_eq_ld, h2.read_unread, h3.read_unread, h5.read_unread, View.ld_unit_zero (S := S1x1) off2,
    View.ld_unit_zero (S := S1x64x512) off3, View.ld_unit_zero (S := S1x64x4096) off3]

/-- The first row block of a batch: the scratch is reset, read back, and ends at the reset value plus the block's
    partial sum. -/
theorem sout_A (c : Dev nD) (i : grid0.Coords) (a2 : Memref sig .tc .vmem S1x64x512 .f32) (h2 : a2.IsWhole) (a3 : Memref sig .tc .vmem S1x64x4096 .f32) (h3 : a3.IsWhole) (a4 : Memref sig .tc .vmem S1x1x1 .f32) (h4 : a4.IsWhole) (a5 : Memref sig .tc .vmem S1x1 .f32) (h5 : a5.IsWhole) (hc0 : cond0_0 i) (hc1 : ¬cond0_1 i)
    (x0 : Vec Ideal S1x64x512 .f32) (x1 : Vec Ideal S1x64x4096 .f32) :
    sout0_A_0 (F := Ideal) c i a2 h2 a3 h3 a4 h4 a5 h5 hc0 hc1 x0 x1 = k0_pay1 (k0_pay4 x0 x1 (k0_pay3 (F := Ideal))) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) off2, View.readCov_unit_zero (S := S1x1) _ off2]
  simp only [View.readAt_eq_ld, h2.read_unread, h3.read_unread,
    View.ld_unit_zero (S := S1x64x512) off3, View.ld_unit_zero (S := S1x64x4096) off3]

/-- The last row block of a batch: the scratch as at a middle block. -/
theorem sout_C (c : Dev nD) (i : grid0.Coords) (a2 : Memref sig .tc .vmem S1x64x512 .f32) (h2 : a2.IsWhole) (a3 : Memref sig .tc .vmem S1x64x4096 .f32) (h3 : a3.IsWhole) (a4 : Memref sig .tc .vmem S1x1x1 .f32) (h4 : a4.IsWhole) (a5 : Memref sig .tc .vmem S1x1 .f32) (h5 : a5.IsWhole) (hc0 : ¬cond0_0 i) (hc1 : cond0_1 i)
    (x0 : Vec Ideal S1x64x512 .f32) (x1 : Vec Ideal S1x64x4096 .f32) (xs0 : Vec Ideal S1x1 .f32) :
    sout0_C_0 (F := Ideal) c i a2 h2 a3 h3 a4 h4 a5 h5 hc0 hc1 x0 x1 xs0 = k0_pay1 (k0_pay4 x0 x1 xs0) := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero off2]
  simp only [View.readAt_eq_ld, h2.read_unread, h3.read_unread, h5.read_unread, View.ld_unit_zero (S := S1x1) off2,
    View.ld_unit_zero (S := S1x64x512) off3, View.ld_unit_zero (S := S1x64x4096) off3]

/-- The last row block of a batch: the output block ends at the closing value of the accumulator just stored. -/
theorem out_C (c : Dev nD) (i : grid0.Coords) (a2 : Memref sig .tc .vmem S1x64x512 .f32) (h2 : a2.IsWhole) (a3 : Memref sig .tc .vmem S1x64x4096 .f32) (h3 : a3.IsWhole) (a4 : Memref sig .tc .vmem S1x1x1 .f32) (h4 : a4.IsWhole) (a5 : Memref sig .tc .vmem S1x1 .f32) (h5 : a5.IsWhole) (hc0 : ¬cond0_0 i) (hc1 : cond0_1 i)
    (x0 : Vec Ideal S1x64x512 .f32) (x1 : Vec Ideal S1x64x4096 .f32) (xs0 : Vec Ideal S1x1 .f32) :
    out0_C_2 (F := Ideal) c i a2 h2 a3 h3 a4 h4 a5 h5 hc0 hc1 x0 x1 xs0 = k0_pay2 (k0_pay1 (k0_pay4 x0 x1 xs0)) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero off3]
  simp only [View.readCov_unit_zero (S := S1x1) _ off2, View.readAt_eq_ld, h2.read_unread, h3.read_unread, h5.read_unread,
    View.ld_unit_zero (S := S1x1) off2, View.ld_unit_zero (S := S1x64x512) off3, View.ld_unit_zero (S := S1x64x4096) off3]

/-- A row block's index only depends on the block number mod 8. -/
theorem rowIdx_mod (k : ℕ) (r : Fin 512) : CxSpec.rowIdx (k % 8) r = CxSpec.rowIdx k r :=
  Fin.ext (by show 512 * (k % 8 % 8) + r.val = 512 * (k % 8) + r.val; rw [Nat.mod_mod])

theorem partialK_mod (xn yn : CxSpec.SX.Idx → EReal) (b : Fin 4) (k : ℕ) :
    CxSpec.partialK xn yn b (k % 8) = CxSpec.partialK xn yn b k := by
  unfold CxSpec.partialK
  exact Finset.sum_congr rfl fun r _ => by rw [rowIdx_mod]

/-- The partial sum the body adds at point `t`, over the blocks it is handed, is the kernel's partial sum of row block
    `t mod 8` of batch `t / 8` over the whole arrays. -/
theorem partial_eq (c : Dev nD) (t : Fin cfg0.N) :
    (∑ r : Fin 512, CxSpec.rowK (fun jj : Fin 4096 => ∑ cc : Fin 64, xBlk m c t (ix3 0 cc r) * yBlk m c t (ix3 0 cc jj)))
      = CxSpec.partialK (xArr m c) (yArr m c) (batchOf t) (t.val % 8) := by
  rw [partialK_mod]
  unfold CxSpec.partialK
  refine Finset.sum_congr rfl fun r _ => congrArg CxSpec.rowK (funext fun jj => ?_)
  show _ = ∑ cc : Fin 64, xArr m c (ix3 (batchOf t) cc (CxSpec.rowIdx t.val r)) * yArr m c (ix3 (batchOf t) cc jj)
  exact Finset.sum_congr rfl fun cc _ => by rw [xBlk_apply, yBlk_apply]

/-- THE RUNNING SUM. After point `n` the carried scratch holds, at its one index, the kernel's running sum of row
    blocks `0 … n mod 8` of batch `n / 8`. -/
theorem acc_at (c : Dev nD) : ∀ (n : ℕ) (h : n < cfg0.N) (b : Fin 4) (k : ℕ), b.val = n / 8 → k = n % 8 → ∀ j : S1x1.Idx,
    (outsAt0 m c n h).2 j = CxSpec.accK (xArr m c) (yArr m c) b k := by
  intro n
  induction n using Nat.strong_induction_on with
  | _ n ih =>
    intro h b k hb hk j
    have hN : cfg0.N = 32 := N_0
    have hbt : batchOf ⟨n, h⟩ = b := Fin.ext hb.symm
    by_cases h0 : n % 8 = 0
    · have h1 : ¬n % 8 = 7 := by omega
      rw [outsAt0_A m c ⟨n, h⟩ h0 h1]
      dsimp only
      refine (congrFun (sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun h' => h1 ((hcond0_1 ⟨n, h⟩).mp h')) (xBlk m c ⟨n, h⟩) (yBlk m c ⟨n, h⟩)) j).trans ?_
      rw [KPayload.pay1_eq, KPayload.pay4_apply, KPayload.pay3_apply, partial_eq m c ⟨n, h⟩, hbt]
      obtain rfl : k = 0 := by omega
      show _ = CxSpec.zero + CxSpec.partialK (xArr m c) (yArr m c) b 0
      rw [show (⟨n, h⟩ : Fin cfg0.N).val % 8 = 0 from h0]
    · obtain ⟨k', rfl⟩ : ∃ k', k = k' + 1 := ⟨k - 1, by omega⟩
      have hlt : n - 1 < n := by omega
      have ihp := fun hh => ih (n - 1) hlt hh b k' (by omega) (by omega)
      by_cases h1 : n % 8 = 7
      · rw [outsAt0_C m c ⟨n, h⟩ h0 h1]
        dsimp only
        refine (congrFun (sout_C c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun h' => h0 ((hcond0_0 ⟨n, h⟩).mp h')) ((hcond0_1 ⟨n, h⟩).mpr h1) (xBlk m c ⟨n, h⟩) (yBlk m c ⟨n, h⟩) (outsAt0 m c (n - 1) (Nat.lt_of_le_of_lt (Nat.sub_le _ _) h)).2) j).trans ?_
        rw [KPayload.pay1_eq, KPayload.pay4_apply, partial_eq m c ⟨n, h⟩, hbt, ihp _ j]
        show _ = CxSpec.accK (xArr m c) (yArr m c) b k' + CxSpec.partialK (xArr m c) (yArr m c) b (k' + 1)
        rw [show (⟨n, h⟩ : Fin cfg0.N).val % 8 = k' + 1 from hk.symm]
      · rw [outsAt0_B m c ⟨n, h⟩ h0 h1]
        dsimp only
        refine (congrFun (sout_B c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun h' => h0 ((hcond0_0 ⟨n, h⟩).mp h')) (fun h' => h1 ((hcond0_1 ⟨n, h⟩).mp h')) (xBlk m c ⟨n, h⟩) (yBlk m c ⟨n, h⟩) (outsAt0 m c (n - 1) (Nat.lt_of_le_of_lt (Nat.sub_le _ _) h)).2) j).trans ?_
        rw [KPayload.pay1_eq, KPayload.pay4_apply, partial_eq m c ⟨n, h⟩, hbt, ihp _ j]
        show _ = CxSpec.accK (xArr m c) (yArr m c) b k' + CxSpec.partialK (xArr m c) (yArr m c) b (k' + 1)
        rw [show (⟨n, h⟩ : Fin cfg0.N).val % 8 = k' + 1 from hk.symm]

/-- At the last row block of a batch the output block holds the kernel's statistic of that batch, at its one index. -/
theorem out_at_flush (c : Dev nD) (t : Fin cfg0.N) (h7 : t.val % 8 = 7) (j : S1x1x1.Idx) :
    (outsAt0 m c t.val t.isLt).1 j = CxSpec.outK (xArr m c) (yArr m c) (batchOf t) := by
  have h0 : ¬t.val % 8 = 0 := by omega
  have e : k0_pay1 (F := Ideal) (k0_pay4 (xBlk m c t) (yBlk m c t) (outsAt0 m c (t.val - 1) (Nat.lt_of_le_of_lt (Nat.sub_le _ _) t.isLt)).2) (ix2 0 0)
      = CxSpec.accK (xArr m c) (yArr m c) (batchOf t) 7 := by
    have e1 := acc_at m c t.val t.isLt (batchOf t) 7 rfl h7.symm (ix2 0 0)
    rw [outsAt0_C m c t h0 h7] at e1
    dsimp only at e1
    exact (congrFun (sout_C c (grid0.coords t) (ms0_0 t) (hs0_0 t) (ms0_1 t) (hs0_1 t) (ms0_2 t) (hs0_2 t) scM0_0 (Memref.isWhole_whole _) (fun h' => h0 ((hcond0_0 t).mp h')) ((hcond0_1 t).mpr h7) (xBlk m c t) (yBlk m c t) (outsAt0 m c (t.val - 1) (Nat.lt_of_le_of_lt (Nat.sub_le _ _) t.isLt)).2) (ix2 0 0)).symm.trans e1
  rw [outsAt0_C m c t h0 h7]
  dsimp only
  refine (congrFun (out_C c (grid0.coords t) (ms0_0 t) (hs0_0 t) (ms0_1 t) (hs0_1 t) (ms0_2 t) (hs0_2 t) scM0_0 (Memref.isWhole_whole _) (fun h' => h0 ((hcond0_0 t).mp h')) ((hcond0_1 t).mpr h7) (xBlk m c t) (yBlk m c t) (outsAt0 m c (t.val - 1) (Nat.lt_of_le_of_lt (Nat.sub_le _ _) t.isLt)).2) j).trans ?_
  rw [KPayload.pay2_apply, e]
  rfl

end Cert.KernelIdeal.KAcc

end
-- ==== Proof.KValue.lean ====
/-
  What the idealized kernel's run leaves in its result: the pieces each control case leaves, the running sum point by
  point, the one block each batch's last point writes back, and the closing reshape.
-/
import proofs.«430911_j66589172957474_3_alg».proof.Proof.Spec
import proofs.«430911_j66589172957474_3_alg».proof.Proof.KPayload
import proofs.«430911_j66589172957474_3_alg».proof.Proof.KBlocks
import proofs.«430911_j66589172957474_3_alg».proof.Proof.KAcc
import proofs.«430911_j66589172957474_3_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KBlocks

variable (m : (ℓ : Loc nD τ sig) → Buf (Elt Ideal) ℓ) (ρ : Dev nD → PrngReg)

/-- The kernel's statistic of every batch, laid out as the region's result array: one entry per batch. -/
abbrev stat (c : Dev nD) : Vec Ideal S4x1x1 .f32 := fun i => CxSpec.outK (xArr m c) (yArr m c) (i 0)

/-- The result window's block index at point `t`: batch `t / 8`, the two unit axes at zero. -/
theorem index_o : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- What a batch's last point writes back is that batch's entry of the statistic, read through the point's block. -/
theorem flushed_eq (c : Dev nD) (t : Fin cfg0.N) (hf : (cfg0.win 2).flush t = true) :
    (dats m 0 c).flushed 2 t = ((cfg0.win 2).blk t).view.read (Elt Ideal) (stat m c) := by
  have h7 : t.val % 8 = 7 := (flush0_2 t).mp hf
  obtain ⟨h0, h1, h2⟩ := index_o t
  show (cfg0.win 2).cut (grid0.coords t) ((dats m 0 c).after 2 t) = _
  rw [after0_2]
  funext j
  rw [View.read_apply]
  refine (KAcc.out_at_flush m c t h7 _).trans ?_
  show CxSpec.outK (xArr m c) (yArr m c) (batchOf t) = CxSpec.outK (xArr m c) (yArr m c) _
  congr 1
  apply Fin.ext
  have hj : (j 0).val < 1 := (j 0).isLt
  show t.val / 8 = win0_2.index t 0 * 1 + 1 * (j 0).val
  rw [h0]; omega

/-- Every entry of the result array lies in the block some batch's last point writes back. -/
theorem cover (i : S4x1x1.Idx) :
    ∃ t : Fin cfg0.N, (cfg0.win 2).flush t = true ∧ i ∈ ((cfg0.win 2).blk t).view.set := by
  have hN : cfg0.N = 32 := N_0
  have hi0 : (i 0).val < 4 := (i 0).isLt
  have hi1 : (i 1).val < 1 := (i 1).isLt
  have hi2 : (i 2).val < 1 := (i 2).isLt
  obtain ⟨t, ht⟩ : ∃ t : Fin cfg0.N, t.val = 8 * (i 0).val + 7 := ⟨⟨8 * (i 0).val + 7, by omega⟩, rfl⟩
  obtain ⟨h0, h1, h2⟩ := index_o t
  refine ⟨t, (flush0_2 t).mpr (by omega), ?_⟩
  show i ∈ ((View.whole main_v27).slice (win0_2.rect t)).set
  rw [View.set_slice_whole, Rect.mem_set_unit]
  intro a
  match a with
  | ⟨0, _⟩ => show win0_2.index t 0 * 1 ≤ (i 0).val ∧ (i 0).val < win0_2.index t 0 * 1 + 1; rw [h0]; omega
  | ⟨1, _⟩ => show win0_2.index t 1 * 1 ≤ (i 1).val ∧ (i 1).val < win0_2.index t 1 * 1 + 1; rw [h1]; omega
  | ⟨2, _⟩ => show win0_2.index t 2 * 1 ≤ (i 2).val ∧ (i 2).val < win0_2.index t 2 * 1 + 1; rw [h2]; omega

/-- So the region's result array ends holding the statistic of every batch. -/
theorem final (c : Dev nD) : (dats m 0 c).arrAt 2 cfg0.N = stat m c :=
  (dats m 0 c).arrAt_eq_of_cover 2 (stat m c) (flushed_eq m c) cover

/-- The closing reshape reads entry `b` of the flat result at entry `(b, 0, 0)` of the region's result array. -/
theorem tail_eq (c : Dev nD) :
    Pipeline.afterTail₀ cfgs (dats m) 0 (V0 m) [hostOps1] c main_v28
      = (fun i : S4.Idx => CxSpec.outK (V m c main_v17) (V m c main_v26) (i 0)) := by
  unfold Pipeline.afterTail₀
  show StableHlo.after hostOps1 _ (Proc.devRef .tc main_v28) = _
  after_results
  funext i
  show shapeCast S4 (Pipeline.withArrays (cfgs 0).spec c (V0 m c) (fun w => (dats m 0 c).arrAt w (cfgs 0).N)
    (Proc.tc.devRef main_v27)) shapeCasts_S4x1x1_S4 i = _
  have e : Pipeline.withArrays (cfgs 0).spec c (V0 m c) (fun w => (dats m 0 c).arrAt w (cfgs 0).N)
      (Proc.tc.devRef main_v27) = stat m c :=
    (Pipeline.withArrays_arr spec0 launch0.win.arr_inj c _ _ 2).trans (final m c)
  rw [e]
  exact shapeCast_apply (stat m c) shapeCasts_S4x1x1_S4 i (ix3 (⟨(i 0).val, (i 0).isLt⟩ : Fin 4) (0 : Fin 1) (0 : Fin 1))
    (by rw [Shape.rowMajor_val_three, Shape.rowMajor_val_one]; show ((i 0).val * 1 + 0) * 1 + 0 = (i 0).val; omega)

/-- The idealized kernel runs, and its result holds the kernel's statistic of the normalised features the region finds,
    batch by batch; the arguments end unchanged. -/
theorem run : θ_run defs (onTc (τ := τ) (main (F := Ideal))) ⟨m, fun _ => 0, ρ⟩ fun r => ∀ c : Dev nD,
      r.2.mem ((c.tc : Thread nD τ).loc main_v28) = (fun i : S4.Idx => CxSpec.outK (V m c main_v17) (V m c main_v26) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's result read at an index: minus the logarithm of the mean, over a batch's 4096 query positions, of the
  reference's row statistic of that position's scores.
-/
import proofs.«430911_j66589172957474_3_alg».proof.Proof.Spec
import proofs.«430911_j66589172957474_3_alg».proof.Proof.Gen.ReferenceIdeal.Run
import proofs.«430911_j66589172957474_3_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read

variable (x0 x1 : (⟨S4x64x64x64, .f32⟩ : BufTy).Contents (Elt Ideal))

/-! ## Indices the stages read at, by coordinates -/

private theorem lidx_ix3 (b : Fin 4) (i j : Fin 4096) (k : Fin 64) : lidx_main_v27 (ix3 b i j) k = ix3 b k i := by
  funext a; match a with | ⟨0, _⟩ => rfl | ⟨1, _⟩ => rfl | ⟨2, _⟩ => rfl

private theorem ridx_ix3 (b : Fin 4) (i j : Fin 4096) (k : Fin 64) : ridx_main_v27 (ix3 b i j) k = ix3 b k j := by
  funext a; match a with | ⟨0, _⟩ => rfl | ⟨1, _⟩ => rfl | ⟨2, _⟩ => rfl

/-- The contraction at (b, i, j) is the score of query position i against key position j in batch b. -/
theorem v27_at (b : Fin 4) (i j : Fin 4096) :
    val_main_v27 (F := Ideal) x0 x1 (ix3 b i j)
      = CxSpec.score (val_main_v17 (F := Ideal) x0 x1) (val_main_v26 (F := Ideal) x1) b i j := by
  rw [val_main_v27_apply]
  unfold CxSpec.score
  refine Finset.sum_congr rfl fun k _ => ?_
  rw [lidx_ix3, ridx_ix3]

/-- The distance at (b, i, j) is one minus the score. -/
theorem v29_at (b : Fin 4) (i j : Fin 4096) :
    val_main_v29 (F := Ideal) x0 x1 (ix3 b i j)
      = CxSpec.one - CxSpec.score (val_main_v17 (F := Ideal) x0 x1) (val_main_v26 (F := Ideal) x1) b i j := by
  rw [val_main_v29_apply, val_main_v28_apply, val_main_cst_5_apply, v27_at, Ideal.subf_def, Ideal.ofBits_def]

/-! ## The two folds over the key axis -/

private theorem lift2_ix (h : S4x4096x4096.Reduces [2] S4x4096) (b : Fin 4) (i : Fin 4096) (j : Fin 4096) :
    h.lift (ix2 b i) j = ix3 b i j := by
  funext a; apply Fin.ext; match a with | ⟨0, _⟩ => rfl | ⟨1, _⟩ => rfl | ⟨2, _⟩ => rfl

/-- The least distance of row (b, i), folded from plus infinity. -/
theorem v30_at (b : Fin 4) (i : Fin 4096) :
    val_main_v30 (F := Ideal) x0 x1 (ix2 b i)
      = CxSpec.rowMinD (CxSpec.score (val_main_v17 (F := Ideal) x0 x1) (val_main_v26 (F := Ideal) x1) b i) := by
  have h : S4x4096x4096.Reduces [2] S4x4096 := by decide
  haveI : Std.Commutative (FloatOps.minimumf (F := Ideal) (φ := .f32)) :=
    show Std.Commutative (min : EReal → EReal → EReal) from inferInstance
  haveI : Std.Associative (FloatOps.minimumf (F := Ideal) (φ := .f32)) :=
    show Std.Associative (min : EReal → EReal → EReal) from inferInstance
  unfold val_main_v30
  rw [Host.reduce_eq_fold_single _ _ _ _ h h_S_ (ix2 b i), val_main_cst_6_apply]
  unfold CxSpec.rowMinD
  have e : (val_main_v29 (F := Ideal) x0 x1 ∘ h.lift (ix2 b i))
      = fun j : Fin 4096 => CxSpec.one - CxSpec.score (val_main_v17 (F := Ideal) x0 x1) (val_main_v26 (F := Ideal) x1) b i j := by
    exact funext fun (j : Fin 4096) =>
      (congrArg (val_main_v29 (F := Ideal) x0 x1) (lift2_ix h b i j)).trans (v29_at x0 x1 b i j)
  rw [e, Ideal.ofBits_def]
  rfl

/-! ## The weights -/

private theorem idx31_ix (b : Fin 4) (i : Fin 4096) (z : Fin 1) : idx_main_v31 (ix3 b i z) = ix2 b i := by
  funext a; match a with | ⟨0, _⟩ => rfl | ⟨1, _⟩ => rfl

private theorem idx34_ix (b : Fin 4) (i j : Fin 4096) : idx_main_v34 (ix3 b i j) = ix3 b i (0 : Fin 1) := by
  funext a; match a with | ⟨0, _⟩ => rfl | ⟨1, _⟩ => rfl | ⟨2, _⟩ => rfl

/-- The divisor of row (b, i), spread over the key axis: the least distance plus the small constant. -/
theorem v34_at (b : Fin 4) (i j : Fin 4096) :
    val_main_v34 (F := Ideal) x0 x1 (ix3 b i j)
      = CxSpec.rowMinD (CxSpec.score (val_main_v17 (F := Ideal) x0 x1) (val_main_v26 (F := Ideal) x1) b i) + CxSpec.epsMin := by
  rw [val_main_v34_apply, idx34_ix, val_main_v33_apply, val_main_v31_apply, idx31_ix, v30_at, val_main_v32_apply,
    val_main_cst_7_apply, Ideal.addf_def, Ideal.ofBits_def]

/-- The weight of key j in row (b, i). -/
theorem v40_at (b : Fin 4) (i j : Fin 4096) :
    val_main_v40 (F := Ideal) x0 x1 (ix3 b i j)
      = CxSpec.wR (CxSpec.score (val_main_v17 (F := Ideal) x0 x1) (val_main_v26 (F := Ideal) x1) b i) j := by
  rw [val_main_v40_apply, val_main_v39_apply, val_main_v37_apply, val_main_v36_apply, val_main_cst_8_apply,
    val_main_v35_apply, v29_at, v34_at, val_main_v38_apply, val_main_cst_9_apply, Ideal.hostUnary_exp_def,
    Ideal.hostDivf_def, Ideal.hostDivf_def, Ideal.subf_def, Ideal.ofBits_def, Ideal.ofBits_def]
  rfl

/-! ## The normalised weights and their greatest -/

private theorem idx41_ix (b : Fin 4) (i k : Fin 4096) : idx_main_v41 (ix2 b i) k = ix3 b i k := by
  funext a; match a with | ⟨0, _⟩ => rfl | ⟨1, _⟩ => rfl | ⟨2, _⟩ => rfl

private theorem idx42_ix (b : Fin 4) (i : Fin 4096) (z : Fin 1) : idx_main_v42 (ix3 b i z) = ix2 b i := by
  funext a; match a with | ⟨0, _⟩ => rfl | ⟨1, _⟩ => rfl

private theorem idx43_ix (b : Fin 4) (i j : Fin 4096) : idx_main_v43 (ix3 b i j) = ix3 b i (0 : Fin 1) := by
  funext a; match a with | ⟨0, _⟩ => rfl | ⟨1, _⟩ => rfl | ⟨2, _⟩ => rfl

/-- The sum of the weights of row (b, i), added to zero. -/
theorem v41_at (b : Fin 4) (i : Fin 4096) :
    val_main_v41 (F := Ideal) x0 x1 (ix2 b i)
      = CxSpec.zero + ∑ j' : Fin 4096, CxSpec.wR (CxSpec.score (val_main_v17 (F := Ideal) x0 x1) (val_main_v26 (F := Ideal) x1) b i) j' := by
  rw [val_main_v41_apply, val_main_cst_10_apply, Ideal.ofBits_def]
  refine congrArg (_ + ·) (Finset.sum_congr rfl fun k _ => ?_)
  rw [idx41_ix, v40_at]

/-- The normalised weight of key j in row (b, i). -/
theorem v44_at (b : Fin 4) (i j : Fin 4096) :
    val_main_v44 (F := Ideal) x0 x1 (ix3 b i j)
      = Ideal.div (CxSpec.wR (CxSpec.score (val_main_v17 (F := Ideal) x0 x1) (val_main_v26 (F := Ideal) x1) b i) j)
          (CxSpec.zero + ∑ j' : Fin 4096, CxSpec.wR (CxSpec.score (val_main_v17 (F := Ideal) x0 x1) (val_main_v26 (F := Ideal) x1) b i) j') := by
  rw [val_main_v44_apply, v40_at, val_main_v43_apply, idx43_ix, val_main_v42_apply, idx42_ix, v41_at, Ideal.hostDivf_def]

/-- The greatest normalised weight of row (b, i), folded from minus infinity: the reference's row statistic. -/
theorem v45_at (b : Fin 4) (i : Fin 4096) :
    val_main_v45 (F := Ideal) x0 x1 (ix2 b i)
      = CxSpec.rowR (CxSpec.score (val_main_v17 (F := Ideal) x0 x1) (val_main_v26 (F := Ideal) x1) b i) := by
  have h : S4x4096x4096.Reduces [2] S4x4096 := by decide
  haveI : Std.Commutative (FloatOps.maximumf (F := Ideal) (φ := .f32)) :=
    show Std.Commutative (max : EReal → EReal → EReal) from inferInstance
  haveI : Std.Associative (FloatOps.maximumf (F := Ideal) (φ := .f32)) :=
    show Std.Associative (max : EReal → EReal → EReal) from inferInstance
  unfold val_main_v45
  rw [Host.reduce_eq_fold_single _ _ _ _ h h_S_ (ix2 b i), val_main_cst_11_apply]
  unfold CxSpec.rowR
  have e : (val_main_v44 (F := Ideal) x0 x1 ∘ h.lift (ix2 b i))
      = fun j : Fin 4096 => Ideal.div (CxSpec.wR (CxSpec.score (val_main_v17 (F := Ideal) x0 x1) (val_main_v26 (F := Ideal) x1) b i) j)
          (CxSpec.zero + ∑ j' : Fin 4096, CxSpec.wR (CxSpec.score (val_main_v17 (F := Ideal) x0 x1) (val_main_v26 (F := Ideal) x1) b i) j') := by
    exact funext fun (j : Fin 4096) =>
      (congrArg (val_main_v44 (F := Ideal) x0 x1) (lift2_ix h b i j)).trans (v44_at x0 x1 b i j)
  rw [e, Ideal.ofBits_def]
  rfl

/-! ## The mean over the query positions and its logarithm -/

private theorem idx46_ix (b : Fin 4) (k : Fin 4096) : idx_main_v46 (ix1 b) k = ix2 b k := by
  funext a; match a with | ⟨0, _⟩ => rfl | ⟨1, _⟩ => rfl

/-- The reference's result at batch b. -/
theorem v50_at (b : Fin 4) :
    val_main_v50 (F := Ideal) x0 x1 (ix1 b)
      = CxSpec.outR (val_main_v17 (F := Ideal) x0 x1) (val_main_v26 (F := Ideal) x1) b := by
  rw [val_main_v50_apply, val_main_v49_apply, val_main_v48_apply, val_main_v47_apply, val_main_cst_13_apply,
    val_main_v46_apply, val_main_cst_12_apply, Ideal.hostNegf_def, Ideal.negf_def, Ideal.hostUnary_log_def,
    Ideal.hostDivf_def, Ideal.ofBits_def, Ideal.ofBits_def]
  have e : ∑ k : Fin 4096, val_main_v45 (F := Ideal) x0 x1 (idx_main_v46 (ix1 b) k)
      = ∑ i : Fin 4096, CxSpec.rowR (CxSpec.score (val_main_v17 (F := Ideal) x0 x1) (val_main_v26 (F := Ideal) x1) b i) :=
    Finset.sum_congr rfl fun k _ => by rw [idx46_ix, v45_at]
  rw [e]
  rfl

/-- The reference's result at batch `i` is its statistic of the two normalised feature arrays. -/
theorem val_out (x0 x1 : (⟨S4x64x64x64, .f32⟩ : BufTy).Contents (Elt Ideal)) (i : S4.Idx) :
    val_main_v50 (F := Ideal) x0 x1 i
      = CxSpec.outR (val_main_v17 (F := Ideal) x0 x1) (val_main_v26 (F := Ideal) x1) (i 0) := by
  obtain ⟨b, rfl⟩ : ∃ b : Fin 4, i = ix1 b := ⟨i 0, eq_ix1 i⟩
  exact v50_at x0 x1 b

end Cert.ReferenceIdeal.RefValue

end
-- ==== Proof.Prologue.lean ====
/-
  The shared prologue: both feature arrays have the spatial mean of the second subtracted, and each position's channel
  vector is divided by its Euclidean norm plus a small positive constant. On finite inputs every entry of the result is a
  real number and every position's channel vector has norm at most one.
-/
import proofs.«430911_j66589172957474_3_alg».proof.Proof.Spec
import proofs.«430911_j66589172957474_3_alg».proof.Proof.Gen.ReferenceIdeal.Read
import proofs.«430911_j66589172957474_3_alg».proof.Proof.Gen.Pre_finite_inputs
import Idealize.ShloMosaic.Lib.Pipeline.Value
import Idealize.ShloMosaic.Lib.ValueIdx
import Idealize.ShloMosaic.Lib.ReduceAll
import Idealize.ShloMosaic.PureOps.Ideal.Laws

noncomputable section

open scoped BigOperators

namespace Cert.ReferenceIdeal.Prologue

open Idealize.ShloMosaic Idealize.ShloMosaic.ValueIdx Cert.ReferenceIdeal Cert.ReferenceIdeal.Gen Cert.ReferenceIdeal.Read

/-! ## Finite inputs are real -/

/-- The pattern of positive infinity denotes the top element. -/
private theorem ofBits_inf : Ideal.ofBits .f32 0x7F800000#32 = (⊤ : EReal) := by
  simp [Ideal.ofBits, Ideal.ieee]

/-- An extended real whose absolute value is below positive infinity is a real number. -/
private theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

private instance subsingleton_scalar_idx : Subsingleton Cert.Pre_finite_inputs.S_.Idx :=
  ⟨fun a b => funext fun d => d.elim0⟩

/-- Finite inputs: every entry of both arguments is a real number. -/
theorem real_of_pre (x0 x1 : (⟨S4x64x64x64, .f32⟩ : BufTy).Contents (Elt Ideal))
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · exact real_of_abs_lt (x0 i) (Host.reduce_andi_all _ _ _ _ _ ha i)
  · exact real_of_abs_lt (x1 i) (Host.reduce_andi_all _ _ _ _ _ hb i)

/-! ## The constants -/

/-- The pattern of `4096.0` denotes the real `4096`. -/
private theorem ofBits_4096 : Ideal.ofBits .f32 0x45800000#32 = ((4096 : ℝ) : EReal) := by
  simp [Ideal.ofBits, Ideal.ieee, -EReal.coe_mul]; norm_num

/-- The small constant added to a norm denotes a positive real. -/
private theorem ofBits_eps : ∃ e : ℝ, 0 < e ∧ Ideal.ofBits .f32 0x2EDBE6FF#32 = (e : EReal) := by
  refine ⟨14411519 * (2 : ℝ) ^ (-57 : ℤ), by positivity, ?_⟩
  simp [Ideal.ofBits, Ideal.ieee, -EReal.coe_mul]

/-! ## Sums, quotients and roots of reals -/

/-- A finite sum of reals, taken in the extended reals, is the real sum. -/
private theorem coe_sum {ι : Type} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The mean of reals is a real. -/
private theorem mean_coe {n : ℕ} (f : Fin n → ℝ) :
    Ideal.div (Ideal.ofBits .f32 0x00000000#32 + ∑ k : Fin n, (f k : EReal)) (Ideal.ofBits .f32 0x45800000#32)
      = (((∑ k : Fin n, f k) * (1 / 4096) : ℝ) : EReal) := by
  rw [Ideal.ofBits_zero_f32, zero_add, coe_sum, ofBits_4096, Ideal.div_coe (by norm_num), EReal.coe_mul]

/-- A real divided by the root of a sum of real squares plus a positive real is a real. -/
private theorem normalise_coe (t : ℝ) (f : Fin 64 → ℝ) (e : ℝ) (he : 0 < e) :
    Ideal.div (t : EReal)
        (Ideal.sqrt (Ideal.ofBits .f32 0x00000000#32 + ∑ k : Fin 64, (f k : EReal) * (f k : EReal)) + (e : EReal))
      = ((t / (Real.sqrt (∑ k : Fin 64, (f k) ^ 2) + e) : ℝ) : EReal) := by
  have hS : (0 : ℝ) ≤ ∑ k : Fin 64, (f k) ^ 2 := Finset.sum_nonneg fun k _ => sq_nonneg _
  have hsum : ∑ k : Fin 64, (f k : EReal) * (f k : EReal) = ((∑ k : Fin 64, (f k) ^ 2 : ℝ) : EReal) := by
    rw [← coe_sum]
    exact Finset.sum_congr rfl fun k _ => by rw [sq, EReal.coe_mul]
  have hd : Real.sqrt (∑ k : Fin 64, (f k) ^ 2) + e ≠ 0 := by
    have := Real.sqrt_nonneg (∑ k : Fin 64, (f k) ^ 2); linarith
  rw [Ideal.ofBits_zero_f32, zero_add, hsum, Ideal.sqrt_coe, if_neg (not_lt.2 hS), ← EReal.coe_add,
    Ideal.div_coe hd, ← EReal.coe_mul, mul_one_div]

/-- A vector divided by its Euclidean norm plus a positive real has squared norm at most one. -/
private theorem sum_sq_le_one (g : Fin 64 → ℝ) (e : ℝ) (he : 0 < e) :
    ∑ c : Fin 64, (g c / (Real.sqrt (∑ k : Fin 64, (g k) ^ 2) + e)) ^ 2 ≤ 1 := by
  have hS : (0 : ℝ) ≤ ∑ k : Fin 64, (g k) ^ 2 := Finset.sum_nonneg fun k _ => sq_nonneg _
  have hr := Real.sqrt_nonneg (∑ k : Fin 64, (g k) ^ 2)
  have hq := Real.sq_sqrt hS
  have hd : 0 < Real.sqrt (∑ k : Fin 64, (g k) ^ 2) + e := by linarith
  have : ∑ c : Fin 64, (g c / (Real.sqrt (∑ k : Fin 64, (g k) ^ 2) + e)) ^ 2
      = (∑ c : Fin 64, (g c) ^ 2) / (Real.sqrt (∑ k : Fin 64, (g k) ^ 2) + e) ^ 2 := by
    rw [Finset.sum_div]
    exact Finset.sum_congr rfl fun c _ => div_pow _ _ _
  rw [this, div_le_one (by positivity)]
  nlinarith

/-! ## The centred arrays are real -/

/-- The channel means of the second argument are real. -/
private theorem v3_real (x1 : (⟨S4x64x64x64, .f32⟩ : BufTy).Contents (Elt Ideal))
    (h1 : ∀ i, ∃ r : ℝ, x1 i = (r : EReal)) (t : S4x64.Idx) :
    ∃ m : ℝ, val_main_v3 (F := Ideal) x1 t = (m : EReal) := by
  choose x1r hx1 using h1
  refine ⟨(∑ k : Fin 4096, x1r (idx_main_v0 (idx_main_v1 t k))) * (1 / 4096), ?_⟩
  rw [val_main_v3_apply, val_main_v1_apply, val_main_cst_apply, val_main_v2_apply, val_main_cst_0_apply]
  simp only [val_main_v0_apply, hx1]
  exact mean_coe _

/-- The first argument less the broadcast means is a real array. -/
private theorem v6_real (x0 x1 : (⟨S4x64x64x64, .f32⟩ : BufTy).Contents (Elt Ideal))
    (h0 : ∀ i, ∃ r : ℝ, x0 i = (r : EReal)) (h1 : ∀ i, ∃ r : ℝ, x1 i = (r : EReal)) :
    ∃ a : S4x64x64x64.Idx → ℝ, ∀ i, val_main_v6 (F := Ideal) x0 x1 i = (a i : EReal) := by
  choose x0r hx0 using h0
  choose m hm using v3_real x1 h1
  refine ⟨fun i => x0r i - m (idx_main_v4 (idx_main_v5 i)), fun i => ?_⟩
  rw [val_main_v6_apply, val_main_v5_apply, val_main_v4_apply, hx0, hm]
  rfl

/-- The second argument less the broadcast means is a real array. -/
private theorem v8_real (x1 : (⟨S4x64x64x64, .f32⟩ : BufTy).Contents (Elt Ideal))
    (h1 : ∀ i, ∃ r : ℝ, x1 i = (r : EReal)) :
    ∃ a : S4x64x64x64.Idx → ℝ, ∀ i, val_main_v8 (F := Ideal) x1 i = (a i : EReal) := by
  choose m hm using v3_real x1 h1
  choose x1r hx1 using h1
  refine ⟨fun i => x1r i - m (idx_main_v4 (idx_main_v7 i)), fun i => ?_⟩
  rw [val_main_v8_apply, val_main_v7_apply, val_main_v4_apply, hm, hx1]
  rfl

/-! ## The normalised arrays -/

/-- The channel line through a position: the indices a position's norm sums over are the position's own, one per
    channel. -/
private theorem idx_line (b : Fin 4) (c k : Fin 64) (n : Fin 4096) :
    idx_main_v10 (idx_main_v11 (idx_main_v15 (idx_main_v17 (ix3 b c n)))) k = idx_main_v17 (ix3 b k n) := by
  have hb := b.isLt
  have hc := c.isLt
  have hk := k.isLt
  have hn := n.isLt
  funext a
  match a with
  | ⟨0, _⟩ =>
    exact Fin.ext (by
      show ((b.val * 64 + c.val) * 4096 + n.val) / 262144 = ((b.val * 64 + k.val) * 4096 + n.val) / 262144
      omega)
  | ⟨1, _⟩ =>
    exact Fin.ext (by
      show k.val = ((b.val * 64 + k.val) * 4096 + n.val) / 4096 % 64
      omega)
  | ⟨2, _⟩ =>
    exact Fin.ext (by
      show ((b.val * 64 + c.val) * 4096 + n.val) / 64 % 64 = ((b.val * 64 + k.val) * 4096 + n.val) / 64 % 64
      omega)
  | ⟨3, _⟩ =>
    exact Fin.ext (by
      show ((b.val * 64 + c.val) * 4096 + n.val) % 64 = ((b.val * 64 + k.val) * 4096 + n.val) % 64
      omega)

/-- The normalised query features at an index, over a real centred array. -/
private theorem v17_coe (x0 x1 : (⟨S4x64x64x64, .f32⟩ : BufTy).Contents (Elt Ideal)) (a : S4x64x64x64.Idx → ℝ)
    (ha : ∀ j, val_main_v6 (F := Ideal) x0 x1 j = (a j : EReal)) (e : ℝ) (he : 0 < e)
    (hE : Ideal.ofBits .f32 0x2EDBE6FF#32 = (e : EReal)) (i : S4x64x4096.Idx) :
    val_main_v17 (F := Ideal) x0 x1 i
      = ((a (idx_main_v17 i) / (Real.sqrt (∑ k : Fin 64,
          (a (idx_main_v10 (idx_main_v11 (idx_main_v15 (idx_main_v17 i))) k)) ^ 2) + e) : ℝ) : EReal) := by
  rw [val_main_v17_apply, val_main_v16_apply, val_main_v15_apply, val_main_v14_apply, val_main_v12_apply,
    val_main_v13_apply, val_main_cst_2_apply, val_main_v11_apply, val_main_v10_apply, val_main_cst_1_apply]
  simp only [val_main_v9_apply, ha, Ideal.ofBits_def, hE, Ideal.hostDivf_def, Ideal.addf_def, Ideal.mulf_def,
    Ideal.hostUnary_sqrt_def]
  exact normalise_coe (a (idx_main_v17 i))
    (fun k => a (idx_main_v10 (idx_main_v11 (idx_main_v15 (idx_main_v17 i))) k)) e he

/-- The normalised key features at an index, over a real centred array. -/
private theorem v26_coe (x1 : (⟨S4x64x64x64, .f32⟩ : BufTy).Contents (Elt Ideal)) (a : S4x64x64x64.Idx → ℝ)
    (ha : ∀ j, val_main_v8 (F := Ideal) x1 j = (a j : EReal)) (e : ℝ) (he : 0 < e)
    (hE : Ideal.ofBits .f32 0x2EDBE6FF#32 = (e : EReal)) (i : S4x64x4096.Idx) :
    val_main_v26 (F := Ideal) x1 i
      = ((a (idx_main_v17 i) / (Real.sqrt (∑ k : Fin 64,
          (a (idx_main_v10 (idx_main_v11 (idx_main_v15 (idx_main_v17 i))) k)) ^ 2) + e) : ℝ) : EReal) := by
  rw [val_main_v26_apply, val_main_v25_apply, val_main_v24_apply, val_main_v23_apply, val_main_v21_apply,
    val_main_v22_apply, val_main_cst_4_apply, val_main_v20_apply, val_main_v19_apply, val_main_cst_3_apply]
  simp only [val_main_v18_apply, ha, Ideal.ofBits_def, hE, Ideal.hostDivf_def, Ideal.addf_def, Ideal.mulf_def,
    Ideal.hostUnary_sqrt_def]
  exact normalise_coe (a (idx_main_v17 i))
    (fun k => a (idx_main_v10 (idx_main_v11 (idx_main_v15 (idx_main_v17 i))) k)) e he

/-- A real centred array, normalised position by position, meets the guarantee. -/
private theorem normed_of_coe (y : CxSpec.SX.Idx → EReal) (a : S4x64x64x64.Idx → ℝ) (e : ℝ) (he : 0 < e)
    (hy : ∀ i : S4x64x4096.Idx, y i = ((a (idx_main_v17 i) / (Real.sqrt (∑ k : Fin 64,
          (a (idx_main_v10 (idx_main_v11 (idx_main_v15 (idx_main_v17 i))) k)) ^ 2) + e) : ℝ) : EReal)) :
    CxSpec.IsNormed y := by
  refine ⟨fun i => a (idx_main_v17 i) / (Real.sqrt (∑ k : Fin 64,
      (a (idx_main_v10 (idx_main_v11 (idx_main_v15 (idx_main_v17 i))) k)) ^ 2) + e), hy, fun b n => ?_⟩
  simp only [idx_line]
  exact sum_sq_le_one (fun c => a (idx_main_v17 (ix3 b c n))) e he

/-- The normalised query features. -/
theorem normed_x (x0 x1 : (⟨S4x64x64x64, .f32⟩ : BufTy).Contents (Elt Ideal))
    (h : Cert.Pre_finite_inputs.fn (F := Ideal) x0 x1 = fun _ => 1#1) :
    CxSpec.IsNormed (val_main_v17 (F := Ideal) x0 x1) := by
  obtain ⟨h0, h1⟩ := real_of_pre x0 x1 h
  obtain ⟨a, ha⟩ := v6_real x0 x1 h0 h1
  obtain ⟨e, he, hE⟩ := ofBits_eps
  exact normed_of_coe _ a e he (v17_coe x0 x1 a ha e he hE)

/-- The normalised key features. -/
theorem normed_y (x0 x1 : (⟨S4x64x64x64, .f32⟩ : BufTy).Contents (Elt Ideal))
    (h : Cert.Pre_finite_inputs.fn (F := Ideal) x0 x1 = fun _ => 1#1) :
    CxSpec.IsNormed (val_main_v26 (F := Ideal) x1) := by
  obtain ⟨h0, h1⟩ := real_of_pre x0 x1 h
  obtain ⟨a, ha⟩ := v8_real x1 h1
  obtain ⟨e, he, hE⟩ := ofBits_eps
  exact normed_of_coe _ a e he (v26_coe x1 a ha e he hE)

end Cert.ReferenceIdeal.Prologue

end
-- ==== Proof.Bridge.lean ====
/-
  The normalised feature arrays the kernel's region finds are the reference's own two stages: both programs apply the
  same host operations to the same arguments before they part ways.
-/
import proofs.«430911_j66589172957474_3_alg».proof.Proof.Gen.KernelIdeal.Frame
import proofs.«430911_j66589172957474_3_alg».proof.Proof.Gen.ReferenceIdeal.Read
import Idealize.ShloMosaic.Lib.StableHlo.Run

noncomputable section

namespace Cert.Proof.Bridge

open Idealize.ShloMosaic Idealize.ShloMosaic.TcCoe Idealize.SL.Sem
open Cert.KernelIdeal Cert.KernelIdeal.Gen

variable (m : (ℓ : Loc nD τ sig) → Buf (Elt Ideal) ℓ)

/-- The normalised query features at region entry are the reference's stage of the same arguments. -/
theorem xArr_eq (c : Dev nD) :
    V m c main_v17 = Cert.ReferenceIdeal.Read.val_main_v17 (F := Ideal)
      (m ((c.tc : Thread nD τ).loc main_arg0)) (m ((c.tc : Thread nD τ).loc main_arg1)) := by
  show StableHlo.after hostOps0 (fun b => m (c, b)) (Proc.devRef .tc main_v17) = _
  after_results
  simp only [Cert.ReferenceIdeal.Read.val_main_v17,
    Cert.ReferenceIdeal.Read.val_main_v16,
    Cert.ReferenceIdeal.Read.val_main_v15,
    Cert.ReferenceIdeal.Read.val_main_v14,
    Cert.ReferenceIdeal.Read.val_main_v13,
    Cert.ReferenceIdeal.Read.val_main_v12,
    Cert.ReferenceIdeal.Read.val_main_v11,
    Cert.ReferenceIdeal.Read.val_main_v10,
    Cert.ReferenceIdeal.Read.val_main_v9,
    Cert.ReferenceIdeal.Read.val_main_v6,
    Cert.ReferenceIdeal.Read.val_main_v5,
    Cert.ReferenceIdeal.Read.val_main_v4,
    Cert.ReferenceIdeal.Read.val_main_v3,
    Cert.ReferenceIdeal.Read.val_main_v2,
    Cert.ReferenceIdeal.Read.val_main_v1,
    Cert.ReferenceIdeal.Read.val_main_v0,
    Cert.ReferenceIdeal.Read.val_main_cst,
    Cert.ReferenceIdeal.Read.val_main_cst_0,
    Cert.ReferenceIdeal.Read.val_main_cst_1,
    Cert.ReferenceIdeal.Read.val_main_cst_2]
  rfl

/-- The normalised key features at region entry are the reference's stage of the same argument. -/
theorem yArr_eq (c : Dev nD) :
    V m c main_v26 = Cert.ReferenceIdeal.Read.val_main_v26 (F := Ideal)
      (m ((c.tc : Thread nD τ).loc main_arg1)) := by
  show StableHlo.after hostOps0 (fun b => m (c, b)) (Proc.devRef .tc main_v26) = _
  after_results
  simp only [Cert.ReferenceIdeal.Read.val_main_v26,
    Cert.ReferenceIdeal.Read.val_main_v25,
    Cert.ReferenceIdeal.Read.val_main_v24,
    Cert.ReferenceIdeal.Read.val_main_v23,
    Cert.ReferenceIdeal.Read.val_main_v22,
    Cert.ReferenceIdeal.Read.val_main_v21,
    Cert.ReferenceIdeal.Read.val_main_v20,
    Cert.ReferenceIdeal.Read.val_main_v19,
    Cert.ReferenceIdeal.Read.val_main_v18,
    Cert.ReferenceIdeal.Read.val_main_v8,
    Cert.ReferenceIdeal.Read.val_main_v7,
    Cert.ReferenceIdeal.Read.val_main_v4,
    Cert.ReferenceIdeal.Read.val_main_v3,
    Cert.ReferenceIdeal.Read.val_main_v2,
    Cert.ReferenceIdeal.Read.val_main_v1,
    Cert.ReferenceIdeal.Read.val_main_v0,
    Cert.ReferenceIdeal.Read.val_main_cst,
    Cert.ReferenceIdeal.Read.val_main_cst_0,
    Cert.ReferenceIdeal.Read.val_main_cst_3,
    Cert.ReferenceIdeal.Read.val_main_cst_4]
  rfl

end Cert.Proof.Bridge

end
-- ==== Proof.lean ====
/-
  The binary contextual loss of two feature maps, fused into one kernel, against its plain formulation.

  Both programs centre the two feature maps on the second one's spatial mean and normalise every position's channel
  vector; from there the reference materialises, per batch, the 4096 × 4096 matrix of cosine distances, rescales every
  row by its least entry, exponentiates, normalises every row to sum one and averages the rows' greatest entries, while
  the kernel walks the query positions in eight blocks of 512, takes each row's greatest score, forms one positive
  multiplier per row and accumulates the quotient of the greatest exponential by the row's sum of exponentials in a
  carried scalar, writing minus the logarithm of the mean at a batch's last block. Over the extended reals the two agree:
  the normalised vectors have norm at most one, so by Cauchy–Schwarz no score exceeds one, the multiplier is positive,
  the greatest weight sits at the greatest score, and the common factor of the reference's weights cancels.
  The kernel's one folded reciprocal is named 1/5 (`preserves`).
-/
import proofs.«430911_j66589172957474_3_alg».proof.Defs
import proofs.«430911_j66589172957474_3_alg».proof.Proof.Spec
import proofs.«430911_j66589172957474_3_alg».proof.Proof.RowIdeal
import proofs.«430911_j66589172957474_3_alg».proof.Proof.KValue
import proofs.«430911_j66589172957474_3_alg».proof.Proof.RefValue
import proofs.«430911_j66589172957474_3_alg».proof.Proof.Prologue
import proofs.«430911_j66589172957474_3_alg».proof.Proof.Bridge
import proofs.«430911_j66589172957474_3_alg».proof.Proof.Gen.Kernel
import proofs.«430911_j66589172957474_3_alg».proof.Proof.Gen.Kernel.Frame
import proofs.«430911_j66589172957474_3_alg».proof.Proof.Gen.KernelIdeal
import proofs.«430911_j66589172957474_3_alg».proof.Proof.Gen.KernelIdeal.Frame
import proofs.«430911_j66589172957474_3_alg».proof.Proof.Gen.ReferenceIdeal
import proofs.«430911_j66589172957474_3_alg».proof.Proof.Gen.ReferenceIdeal.Run
import proofs.«430911_j66589172957474_3_alg».proof.Proof.Gen.ReferenceIdeal.Read
import proofs.«430911_j66589172957474_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealisation: the folded reciprocal of five denotes 1/5. -/
theorem preserves : Cert.preserves_Kernel_KernelIdeal :=
  IdealRules.named_const.statement Cert.KernelIdeal.κ "inv_5" .f32 0x3E4CCCCD#32 ((1 / 5 : ℝ) : EReal) rfl

/-- Both runs end; the kernel's result is its statistic of the normalised features, the reference's its own, and on
    normalised features the two statistics agree batch by batch. -/
theorem algebraic : Cert.algebraic_KernelIdeal_ReferenceIdeal := by
  intro m ρ m' ρ' hpre hagree
  refine ⟨fun c => (fun i : Cert.KernelIdeal.S4.Idx =>
      CxSpec.outK (Cert.KernelIdeal.Gen.V m c Cert.KernelIdeal.main_v17) (Cert.KernelIdeal.Gen.V m c Cert.KernelIdeal.main_v26) (i 0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2]
  funext i
  show _ = CxSpec.outK (Cert.KernelIdeal.Gen.V m c Cert.KernelIdeal.main_v17) (Cert.KernelIdeal.Gen.V m c Cert.KernelIdeal.main_v26) (i 0)
  rw [Cert.ReferenceIdeal.RefValue.val_out, Cert.Proof.Bridge.xArr_eq, Cert.Proof.Bridge.yArr_eq]
  exact (CxSpec.out_eq _ _ (Cert.ReferenceIdeal.Prologue.normed_x _ _ (hpre c))
    (Cert.ReferenceIdeal.Prologue.normed_y _ _ (hpre c)) (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
